-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000x4 : Shape := ⟨2, ![640000, 4]⟩
abbrev S128x128 : Shape := ⟨2, ![128, 128]⟩
abbrev S128 : Shape := ⟨1, ![128]⟩
abbrev S2x640000 : Shape := ⟨2, ![2, 640000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x4 : S_.BroadcastsInDim S640000x4 (![] : Fin 0 → Fin S640000x4.rank)
  reducesTo_S640000x4_S_d0_1 : S640000x4.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x640000 : S_.BroadcastsInDim S2x640000 (![] : Fin 0 → Fin S2x640000.rank)
  reducesTo_S2x640000_S_d0_1 : S2x640000.ReducesTo [0, 1] S_

variable [Facts]

def fn_part2 {F : FTy → Type} [FloatOps F] (main_v28 : IVec S_ 1) (main_v33 : IVec S2x640000 1) : IVec S_ 1 :=
  let main_c_12 : IVec S_ 1 := constantI S_ 1 1#1
  let main_v34 : IVec S_ 1 := (fun x v => Host.reduce IntOp.andi x v reducesTo_S2x640000_S_d0_1 h_S_) main_v33 main_c_12
  let main_v35 : IVec S_ 1 := andi main_v28 main_v34
  main_v35

def fn_part1 {F : FTy → Type} [FloatOps F] (main_arg4 : FVec F S128 .f32) (main_arg5 : FVec F S128 .f32) (main_arg6 : IVec S2x640000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S2x640000 32 := broadcastInDim S2x640000 ![] bcast_S_S2x640000 main_c_10
  let main_v30 : IVec S2x640000 1 := cmpi .sge main_arg6 main_v29
  let main_c_11 : IVec S_ 32 := constantI S_ 32 10000#32
  let main_v31 : IVec S2x640000 32 := broadcastInDim S2x640000 ![] bcast_S_S2x640000 main_c_11
  let main_v32 : IVec S2x640000 1 := cmpi .slt main_arg6 main_v31
  let main_v33 : IVec S2x640000 1 := andi main_v30 main_v32
  fn_part2 (F := F) main_v28 main_v33

def fn {F : FTy → Type} [FloatOps F] (main_arg0 : FVec F S10000x128 .f32) (main_arg1 : FVec F S640000x4 .f32) (main_arg2 : FVec F S128x128 .f32) (main_arg3 : FVec F S128 .f32) (main_arg4 : FVec F S128 .f32) (main_arg5 : FVec F S128 .f32) (main_arg6 : IVec S2x640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x4 .f32 := Host.absf main_arg1
  let main_cst_0 : FVec F S_ .f32 := constant S_ .f32 0x7F800000#32
  let main_v5 : FVec F S640000x4 .f32 := broadcastInDim S640000x4 ![] bcast_S_S640000x4 main_cst_0
  let main_v6 : IVec S640000x4 1 := cmpf .olt main_v4 main_v5
  let main_c_1 : IVec S_ 1 := constantI S_ 1 1#1
  let main_v7 : IVec S_ 1 := (fun x v => Host.reduce IntOp.andi x v reducesTo_S640000x4_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S10000x128 : Shape := ⟨2, ![10000, 128]⟩
abbrev S640000x4 : Shape := ⟨2, ![640000, 4]⟩
abbrev S128x128 : Shape := ⟨2, ![128, 128]⟩
abbrev S128 : Shape := ⟨1, ![128]⟩
abbrev S2x640000 : Shape := ⟨2, ![2, 640000]⟩
abbrev S640000x1 : Shape := ⟨2, ![640000, 1]⟩
abbrev S640000 : Shape := ⟨1, ![640000]⟩
abbrev S10000 : Shape := ⟨1, ![10000]⟩
abbrev S1x640000 : Shape := ⟨2, ![1, 640000]⟩
abbrev S650000 : Shape := ⟨1, ![650000]⟩
abbrev S_ : Shape := ⟨0, ![]⟩
abbrev S650000x1 : Shape := ⟨2, ![650000, 1]⟩
abbrev S100000000 : Shape := ⟨1, ![100000000]⟩
abbrev S10000x10000 : Shape := ⟨2, ![10000, 10000]⟩
abbrev S1x128 : Shape := ⟨2, ![1, 128]⟩
abbrev S2000x128 : Shape := ⟨2, ![2000, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 71
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S640000x4, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S2x640000, .i32⟩
  | .hbm, ⟨7, _⟩ => ⟨S640000x1, .f32⟩
  | .hbm, ⟨8, _⟩ => ⟨S640000, .f32⟩
  | .hbm, ⟨9, _⟩ => ⟨S640000, .f32⟩
  | .hbm, ⟨10, _⟩ => ⟨S10000, .i32⟩
  | .hbm, ⟨11, _⟩ => ⟨S1x640000, .i32⟩
  | .hbm, ⟨12, _⟩ => ⟨S640000, .i32⟩
  | .hbm, ⟨13, _⟩ => ⟨S650000, .i32⟩
  | .hbm, ⟨14, _⟩ => ⟨S1x640000, .i32⟩
  | .hbm, ⟨15, _⟩ => ⟨S640000, .i32⟩
  | .hbm, ⟨16, _⟩ => ⟨S650000, .i32⟩
  | .hbm, ⟨17, _⟩ => ⟨S_, .f32⟩
  | .hbm, ⟨18, _⟩ => ⟨S10000, .f32⟩
  | .hbm, ⟨19, _⟩ => ⟨S650000, .f32⟩
  | .hbm, ⟨20, _⟩ => ⟨S_, .f32⟩
  | .hbm, ⟨21, _⟩ => ⟨S10000, .f32⟩
  | .hbm, ⟨22, _⟩ => ⟨S650000x1, .i32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .i1⟩
  | .hbm, ⟨27, _⟩ => ⟨S10000, .f32⟩
  | .hbm, ⟨28, _⟩ => ⟨S_, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S_, .i32⟩
  | .hbm, ⟨33, _⟩ => ⟨S650000, .i32⟩
  | .hbm, ⟨34, _⟩ => ⟨S650000, .i1⟩
  | .hbm, ⟨35, _⟩ => ⟨S_, .i32⟩
  | .hbm, ⟨36, _⟩ => ⟨S650000, .i32⟩
  | .hbm, ⟨37, _⟩ => ⟨S650000, .i32⟩
  | .hbm, ⟨38, _⟩ => ⟨S650000, .i32⟩
  | .hbm, ⟨39, _⟩ => ⟨S650000x1, .i32⟩
  | .hbm, ⟨40, _⟩ => ⟨S650000, .f32⟩
  | .hbm, ⟨41, _⟩ => ⟨S650000, .f32⟩
  | .hbm, ⟨42, _⟩ => ⟨S_, .i32⟩
  | .hbm, ⟨43, _⟩ => ⟨S650000, .i32⟩
  | .hbm, ⟨44, _⟩ => ⟨S650000, .i1⟩
  | .hbm, ⟨45, _⟩ => ⟨S_, .i32⟩
  | .hbm, ⟨46, _⟩ => ⟨S650000, .i32⟩
  | .hbm, ⟨47, _⟩ => ⟨S650000, .i32⟩
  | .hbm, ⟨48, _⟩ => ⟨S650000, .i32⟩
  | .hbm, ⟨49, _⟩ => ⟨S650000x1, .i32⟩
  | .hbm, ⟨50, _⟩ => ⟨S650000, .f32⟩
  | .hbm, ⟨51, _⟩ => ⟨S650000, .f32⟩
  | .hbm, ⟨52, _⟩ => ⟨S_, .i32⟩
  | .hbm, ⟨53, _⟩ => ⟨S650000, .i32⟩
  | .hbm, ⟨54, _⟩ => ⟨S650000, .i32⟩
  | .hbm, ⟨55, _⟩ => ⟨S650000, .i32⟩
  | .hbm, ⟨56, _⟩ => ⟨S_, .f32⟩
  | .hbm, ⟨57, _⟩ => ⟨S100000000, .f32⟩
  | .hbm, ⟨58, _⟩ => ⟨S650000x1, .i32⟩
  | .hbm, ⟨59, _⟩ => ⟨S100000000, .f32⟩
  | .hbm, ⟨60, _⟩ => ⟨S10000x10000, .f32⟩
  | .hbm, ⟨61, _⟩ => ⟨S10000x10000, .bf16⟩
  | .hbm, ⟨62, _⟩ => ⟨S10000x10000, .f32⟩
  | .hbm, ⟨63, _⟩ => ⟨S10000x10000, .f32⟩
  | .hbm, ⟨64, _⟩ => ⟨S10000x10000, .bf16⟩
  | .hbm, ⟨65, _⟩ => ⟨S128x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S10000x128, .bf16⟩
  | .hbm, ⟨70, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .bf16⟩
  | .local _ .vmem, ⟨5, _⟩ => ⟨S2000x128, .bf16⟩
  | .local _ .vmem, ⟨6, _⟩ => ⟨S400x10000, .bf16⟩
  | .local _ .vmem, ⟨7, _⟩ => ⟨S400x10000, .bf16⟩
  | .local _ .vmem, ⟨8, _⟩ => ⟨S400x10000, .bf16⟩
  | .local _ .vmem, ⟨9, _⟩ => ⟨S400x10000, .bf16⟩
  | .local _ .vmem, ⟨10, _⟩ => ⟨S10000x128, .bf16⟩
  | .local _ .vmem, ⟨11, _⟩ => ⟨S1x128, .f32⟩
  | .local _ .vmem, ⟨12, _⟩ => ⟨S1x128, .f32⟩
  | .local _ .vmem, ⟨13, _⟩ => ⟨S400x128, .f32⟩
  | .local _ .vmem, ⟨14, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x10000 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S640000x4_S640000x1_0_0 : S640000x4.Slices ![0, 0] S640000x1
  shapeCasts_S640000x1_S640000 : S640000x1.ShapeCasts S640000
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S10000 : S_.BroadcastsInDim S10000 (![] : Fin 0 → Fin S10000.rank)
  bcast_S650000_S650000x1_0 : S650000.BroadcastsInDim S650000x1 (![0] : Fin 1 → Fin S650000x1.rank)
  bcast_S_S650000 : S_.BroadcastsInDim S650000 (![] : Fin 0 → Fin S650000.rank)
  bcast_S_S100000000 : S_.BroadcastsInDim S100000000 (![] : Fin 0 → Fin S100000000.rank)
  shapeCasts_S100000000_S10000x10000 : S100000000.ShapeCasts S10000x10000
  bitsLt_bf16_f32 : FTy.bits .bf16 < FTy.bits .f32
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  reduces_S400x128_S400 : S400x128.Reduces [1] S400
  shapeCasts_S400_S400x1 : S400.ShapeCasts S400x1
  broadcasts_S400x1_S400x128 : S400x1.Broadcasts S400x128
  broadcasts_S1x128_S400x128 : S1x128.Broadcasts S400x128
  inb_S400x128_S400x128_0_0 : ∀ a, (![0, 0] : Fin 2 → Nat) a + S400x128.size a ≤ S400x128.size a
  h_S400x128 : 0 < S400x128.numel
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  scatter_S100000000_S650000x1_S650000_n_0_0_1_wf : ScatterDims.WF S100000000 S650000x1 S650000 [] [0] [0] 1
  dot_S2000x128_S128x128_S2000x128_1_0_0_1_n_n_wf : DotDims.WF S2000x128 S128x128 S2000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S10000x128.size a
  hwx0_3 : ∀ i : grid0.Coords, EltTy.bits .bf16 = 32 ∨ (Rect.block (s := S10000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x10000.size a ≤ S10000x10000.size a
  hwx1_1 : ∀ i : grid1.Coords, EltTy.bits .bf16 = 32 ∨ (Rect.block (s := S10000x10000) S400x10000.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .bf16 = 32 ∨ (Rect.block (s := S10000x128) S10000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .f32 = 32 ∨ (Rect.block (s := S10000x128) S400x128.size (cc1_transform_5 i) (hinb1_5 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def scatter_S100000000_S650000x1_S650000_n_0_0_1 : ScatterDims S100000000 S650000x1 S650000 where
  updateWindowDims := []
  insertedWindowDims := [0]
  scatterDimsToOperandDims := [0]
  indexVectorDim := 1
  wf := scatter_S100000000_S650000x1_S650000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S400x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S640000x4 : Shape := ⟨2, ![640000, 4]⟩
abbrev S128x128 : Shape := ⟨2, ![128, 128]⟩
abbrev S128 : Shape := ⟨1, ![128]⟩
abbrev S2x640000 : Shape := ⟨2, ![2, 640000]⟩
abbrev S640000x1 : Shape := ⟨2, ![640000, 1]⟩
abbrev S640000 : Shape := ⟨1, ![640000]⟩
abbrev S10000 : Shape := ⟨1, ![10000]⟩
abbrev S1x640000 : Shape := ⟨2, ![1, 640000]⟩
abbrev S650000 : Shape := ⟨1, ![650000]⟩
abbrev S_ : Shape := ⟨0, ![]⟩
abbrev S650000x1 : Shape := ⟨2, ![650000, 1]⟩
abbrev S1x128 : Shape := ⟨2, ![1, 128]⟩
abbrev S650000x128 : Shape := ⟨2, ![650000, 128]⟩
abbrev S10000x1 : Shape := ⟨2, ![10000, 1]⟩

abbrev nBuf : Space → Nat
  | .hbm => 109
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000x4, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S2x640000, .i32⟩
  | .hbm, ⟨7, _⟩ => ⟨S640000x1, .f32⟩
  | .hbm, ⟨8, _⟩ => ⟨S640000, .f32⟩
  | .hbm, ⟨9, _⟩ => ⟨S640000, .f32⟩
  | .hbm, ⟨10, _⟩ => ⟨S10000, .i32⟩
  | .hbm, ⟨11, _⟩ => ⟨S1x640000, .i32⟩
  | .hbm, ⟨12, _⟩ => ⟨S640000, .i32⟩
  | .hbm, ⟨13, _⟩ => ⟨S650000, .i32⟩
  | .hbm, ⟨14, _⟩ => ⟨S1x640000, .i32⟩
  | .hbm, ⟨15, _⟩ => ⟨S640000, .i32⟩
  | .hbm, ⟨16, _⟩ => ⟨S650000, .i32⟩
  | .hbm, ⟨17, _⟩ => ⟨S_, .f32⟩
  | .hbm, ⟨18, _⟩ => ⟨S10000, .f32⟩
  | .hbm, ⟨19, _⟩ => ⟨S650000, .f32⟩
  | .hbm, ⟨20, _⟩ => ⟨S_, .f32⟩
  | .hbm, ⟨21, _⟩ => ⟨S10000, .f32⟩
  | .hbm, ⟨22, _⟩ => ⟨S650000x1, .i32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .i1⟩
  | .hbm, ⟨27, _⟩ => ⟨S10000, .f32⟩
  | .hbm, ⟨28, _⟩ => ⟨S_, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S_, .i32⟩
  | .hbm, ⟨33, _⟩ => ⟨S650000, .i32⟩
  | .hbm, ⟨34, _⟩ => ⟨S650000, .i1⟩
  | .hbm, ⟨35, _⟩ => ⟨S_, .i32⟩
  | .hbm, ⟨36, _⟩ => ⟨S650000, .i32⟩
  | .hbm, ⟨37, _⟩ => ⟨S650000, .i32⟩
  | .hbm, ⟨38, _⟩ => ⟨S650000, .i32⟩
  | .hbm, ⟨39, _⟩ => ⟨S650000x1, .i32⟩
  | .hbm, ⟨40, _⟩ => ⟨S650000, .f32⟩
  | .hbm, ⟨41, _⟩ => ⟨S650000, .f32⟩
  | .hbm, ⟨42, _⟩ => ⟨S_, .i32⟩
  | .hbm, ⟨43, _⟩ => ⟨S650000, .i32⟩
  | .hbm, ⟨44, _⟩ => ⟨S650000, .i1⟩
  | .hbm, ⟨45, _⟩ => ⟨S_, .i32⟩
  | .hbm, ⟨46, _⟩ => ⟨S650000, .i32⟩
  | .hbm, ⟨47, _⟩ => ⟨S650000, .i32⟩
  | .hbm, ⟨48, _⟩ => ⟨S650000, .i32⟩
  | .hbm, ⟨49, _⟩ => ⟨S650000x1, .i32⟩
  | .hbm, ⟨50, _⟩ => ⟨S650000, .f32⟩
  | .hbm, ⟨51, _⟩ => ⟨S650000, .f32⟩
  | .hbm, ⟨52, _⟩ => ⟨S128x128, .f32⟩
  | .hbm, ⟨53, _⟩ => ⟨S10000x128, .f32⟩
  | .hbm, ⟨54, _⟩ => ⟨S1x128, .f32⟩
  | .hbm, ⟨55, _⟩ => ⟨S10000x128, .f32⟩
  | .hbm, ⟨56, _⟩ => ⟨S10000x128, .f32⟩
  | .hbm, ⟨57, _⟩ => ⟨S_, .i32⟩
  | .hbm, ⟨58, _⟩ => ⟨S650000, .i32⟩
  | .hbm, ⟨59, _⟩ => ⟨S650000, .i1⟩
  | .hbm, ⟨60, _⟩ => ⟨S_, .i32⟩
  | .hbm, ⟨61, _⟩ => ⟨S650000, .i32⟩
  | .hbm, ⟨62, _⟩ => ⟨S650000, .i32⟩
  | .hbm, ⟨63, _⟩ => ⟨S650000, .i32⟩
  | .hbm, ⟨64, _⟩ => ⟨S650000x1, .i32⟩
  | .hbm, ⟨65, _⟩ => ⟨S650000x128, .f32⟩
  | .hbm, ⟨66, _⟩ => ⟨S650000x1, .f32⟩
  | .hbm, ⟨67, _⟩ => ⟨S650000x128, .f32⟩
  | .hbm, ⟨68, _⟩ => ⟨S650000x128, .f32⟩
  | .hbm, ⟨69, _⟩ => ⟨S_, .f32⟩
  | .hbm, ⟨70, _⟩ => ⟨S10000x128, .f32⟩
  | .hbm, ⟨71, _⟩ => ⟨S650000x1, .i32⟩
  | .hbm, ⟨72, _⟩ => ⟨S10000x128, .f32⟩
  | .hbm, ⟨73, _⟩ => ⟨S_, .f32⟩
  | .hbm, ⟨74, _⟩ => ⟨S10000x128, .f32⟩
  | .hbm, ⟨75, _⟩ => ⟨S10000x128, .i1⟩
  | .hbm, ⟨76, _⟩ => ⟨S_, .f32⟩
  | .hbm, ⟨77, _⟩ => ⟨S10000x128, .f32⟩
  | .hbm, ⟨78, _⟩ => ⟨S10000x128, .f32⟩
  | .hbm, ⟨79, _⟩ => ⟨S10000x128, .f32⟩
  | .hbm, ⟨80, _⟩ => ⟨S_, .f32⟩
  | .hbm, ⟨81, _⟩ => ⟨S10000, .f32⟩
  | .hbm, ⟨82, _⟩ => ⟨S10000x1, .f32⟩
  | .hbm, ⟨83, _⟩ => ⟨S_, .f32⟩
  | .hbm, ⟨84, _⟩ => ⟨S10000x1, .f32⟩
  | .hbm, ⟨85, _⟩ => ⟨S10000x1, .f32⟩
  | .hbm, ⟨86, _⟩ => ⟨S10000x128, .f32⟩
  | .hbm, ⟨87, _⟩ => ⟨S10000x128, .f32⟩
  | .hbm, ⟨88, _⟩ => ⟨S10000x128, .f32⟩
  | .hbm, ⟨89, _⟩ => ⟨S_, .f32⟩
  | .hbm, ⟨90, _⟩ => ⟨S10000, .f32⟩
  | .hbm, ⟨91, _⟩ => ⟨S10000x1, .f32⟩
  | .hbm, ⟨92, _⟩ => ⟨S_, .f32⟩
  | .hbm, ⟨93, _⟩ => ⟨S10000x1, .f32⟩
  | .hbm, ⟨94, _⟩ => ⟨S10000x1, .f32⟩
  | .hbm, ⟨95, _⟩ => ⟨S10000x128, .f32⟩
  | .hbm, ⟨96, _⟩ => ⟨S10000x128, .f32⟩
  | .hbm, ⟨97, _⟩ => ⟨S_, .f32⟩
  | .hbm, ⟨98, _⟩ => ⟨S10000x1, .f32⟩
  | .hbm, ⟨99, _⟩ => ⟨S10000x1, .f32⟩
  | .hbm, ⟨100, _⟩ => ⟨S10000x1, .f32⟩
  | .hbm, ⟨101, _⟩ => ⟨S10000x128, .f32⟩
  | .hbm, ⟨102, _⟩ => ⟨S10000x128, .f32⟩
  | .hbm, ⟨103, _⟩ => ⟨S1x128, .f32⟩
  | .hbm, ⟨104, _⟩ => ⟨S10000x128, .f32⟩
  | .hbm, ⟨105, _⟩ => ⟨S10000x128, .f32⟩
  | .hbm, ⟨106, _⟩ => ⟨S1x128, .f32⟩
  | .hbm, ⟨107, _⟩ => ⟨S10000x128, .f32⟩
  | .hbm, ⟨108, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_15 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩

abbrev nD : Nat := 1
abbrev τ : Topo := Topo.v7x

variable {F : FTy → Type} [FloatOps F]

class Facts₀ : Prop where
  slices_S640000x4_S640000x1_0_0 : S640000x4.Slices ![0, 0] S640000x1
  shapeCasts_S640000x1_S640000 : S640000x1.ShapeCasts S640000
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S10000 : S_.BroadcastsInDim S10000 (![] : Fin 0 → Fin S10000.rank)
  bcast_S650000_S650000x1_0 : S650000.BroadcastsInDim S650000x1 (![0] : Fin 1 → Fin S650000x1.rank)
  bcast_S_S650000 : S_.BroadcastsInDim S650000 (![] : Fin 0 → Fin S650000.rank)
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S10000x128_S128x128_S10000x128_1_0_0_1_n_n_wf : DotDims.WF S10000x128 S128x128 S10000x128 [1] [0] [0] [1] [] []
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf

class Facts : Prop extends Facts₀ where

variable [Facts]
-- ==== Proof.HostVals.lean ====
import proofs.«421699_j16904991277609_3_alg».proof.Proof.Gen.KernelIdeal.Frame
import proofs.«421699_j16904991277609_3_alg».proof.Proof.RefRead
import Idealize.ShloMosaic.Lib.StableHlo.Run

/-!
# What the two launches find in their arrays

Before the first launch the host program computes, from the edge table and the edge attributes, the
edge endpoints with the self-loops appended, the normalised edge weights, and from those the dense
adjacency: the weights scattered, with accumulation, onto the flat position `target · 10000 + source`
of a zeroed array of 10000 · 10000 entries, reshaped to a square matrix; then the matrix in the
narrow float format and its remainder against that; the transposed weight matrix; and the bias and
the two normalisation vectors reshaped to one row. The endpoints and the normalised weights are
computed by the same operations as in the reference program, and are named by the reference's terms.
-/

set_option maxRecDepth 16384

noncomputable section

namespace Cert.KernelIdeal.HostVals

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The edges' sources (the edge table's first row, then the self-loops `0 … 9999`): the reference's term. -/
abbrev rowK (x6 : IVec S2x640000 32) : IVec S650000 32 := Cert.ReferenceIdeal.ReadP.val_main_v6 (F := F) x6
/-- The edges' targets (the edge table's second row, then the self-loops): the reference's term. -/
abbrev colK (x6 : IVec S2x640000 32) : IVec S650000 32 := Cert.ReferenceIdeal.ReadP.val_main_v9 (F := F) x6
/-- The normalised edge weights: the reference's term. -/
abbrev normK (x1 : FVec F S640000x4 .f32) (x6 : IVec S2x640000 32) : FVec F S650000 .f32 :=
  Cert.ReferenceIdeal.ReadP.val_main_v34 (F := F) x1 x6

/-- The dense adjacency: the normalised weights scattered with accumulation onto `target · 10000 + source`
    of a zeroed flat array, reshaped to 10000 × 10000. -/
def adjK (x1 : FVec F S640000x4 .f32) (x6 : IVec S2x640000 32) : FVec F S10000x10000 .f32 :=
  shapeCast S10000x10000
    (Host.scatterAdd scatter_S100000000_S650000x1_S650000_n_0_0_1
      (broadcastInDim S100000000 ![] bcast_S_S100000000 (constant S_ .f32 0x00000000#32))
      (broadcastInDim S650000x1 ![0] bcast_S650000_S650000x1_0
        (addi (muli (colK (F := F) x6) (broadcastInDim S650000 ![] bcast_S_S650000 (constantI S_ 32 10000#32))) (rowK (F := F) x6)))
      (normK x1 x6))
    shapeCasts_S100000000_S10000x10000

/-! ## The host program's last stretch, from any contents before it

The last stretch of host operations reads four earlier values: the sources, the targets, the raw edge
weights (the attributes' first column in absolute value, then a one per self-loop) and the degree
normaliser (the inverse square root of each node's summed weight, zero where the sum is not positive).
From these it forms each edge's normalised weight and the dense adjacency. -/

/-- Two vectors joined end to end along their one axis. -/
def cat2 {α : Type} (a : S640000.Idx → α) (b : S10000.Idx → α) : S650000.Idx → α :=
  concatenate S650000 0 [⟨S640000, a⟩, ⟨S10000, b⟩] concatenates_S640000_S10000_S650000_d0

theorem cat2_fold {α : Type} (a : S640000.Idx → α) (b : S10000.Idx → α) :
    concatenate S650000 0 [⟨S640000, a⟩, ⟨S10000, b⟩] concatenates_S640000_S10000_S650000_d0 = cat2 a b := rfl

/-- An edge's normalised weight: the degree normaliser `a18` read at the edge's source and at its target
    (a negative endpoint counted from the end), times the edge's raw weight `a11`. -/
def norm34 (a18 : FVec F S10000 .f32) (a6 a9 : IVec S650000 32) (a11 : FVec F S650000 .f32) : FVec F S650000 .f32 :=
  mulf
    (mulf
      (Host.gather gather_S10000_S650000x1_S650000_n_0_n_n_0_1_1 a18
        (broadcastInDim S650000x1 ![0] bcast_S650000_S650000x1_0
          (select (cmpi .slt a6 (broadcastInDim S650000 ![] bcast_S_S650000 (constantI S_ 32 0#32)))
            (addi a6 (broadcastInDim S650000 ![] bcast_S_S650000 (constantI S_ 32 10000#32))) a6)))
      a11)
    (Host.gather gather_S10000_S650000x1_S650000_n_0_n_n_0_1_1 a18
      (broadcastInDim S650000x1 ![0] bcast_S650000_S650000x1_0
        (select (cmpi .slt a9 (broadcastInDim S650000 ![] bcast_S_S650000 (constantI S_ 32 0#32)))
          (addi a9 (broadcastInDim S650000 ![] bcast_S_S650000 (constantI S_ 32 10000#32))) a9)))

/-- The dense adjacency from the sources `a6`, the targets `a9` and the edges' weights `w`. -/
def adjOf (a6 a9 : IVec S650000 32) (w : FVec F S650000 .f32) : FVec F S10000x10000 .f32 :=
  shapeCast S10000x10000
    (Host.scatterAdd scatter_S100000000_S650000x1_S650000_n_0_0_1
      (broadcastInDim S100000000 ![] bcast_S_S100000000 (constant S_ .f32 0x00000000#32))
      (broadcastInDim S650000x1 ![0] bcast_S650000_S650000x1_0
        (addi (muli a9 (broadcastInDim S650000 ![] bcast_S_S650000 (constantI S_ 32 10000#32))) a6))
      w)
    shapeCasts_S100000000_S10000x10000

section Tail

variable (X : Valuation τ sig (Elt F))

/-- After the last stretch, from contents `X`: the adjacency in the narrow format. -/
theorem tail_v42 :
    StableHlo.after hostOps0_2 X (Proc.devRef .tc main_v42)
      = truncf .bf16 (adjOf (X (Proc.devRef .tc main_v6)) (X (Proc.devRef .tc main_v9))
          (norm34 (X (Proc.devRef .tc main_v18)) (X (Proc.devRef .tc main_v6)) (X (Proc.devRef .tc main_v9)) (X (Proc.devRef .tc main_v11)))) bitsLt_bf16_f32 := by
  after_results_simp
  rfl

/-- After the last stretch, from contents `X`: the adjacency's remainder against its narrow format. -/
theorem tail_v45 :
    StableHlo.after hostOps0_2 X (Proc.devRef .tc main_v45)
      = truncf .bf16
          (subf (adjOf (X (Proc.devRef .tc main_v6)) (X (Proc.devRef .tc main_v9))
              (norm34 (X (Proc.devRef .tc main_v18)) (X (Proc.devRef .tc main_v6)) (X (Proc.devRef .tc main_v9)) (X (Proc.devRef .tc main_v11))))
            (extf .f32 (truncf .bf16 (adjOf (X (Proc.devRef .tc main_v6)) (X (Proc.devRef .tc main_v9))
              (norm34 (X (Proc.devRef .tc main_v18)) (X (Proc.devRef .tc main_v6)) (X (Proc.devRef .tc main_v9)) (X (Proc.devRef .tc main_v11)))) bitsLt_bf16_f32) bitsLt_bf16_f32))
          bitsLt_bf16_f32 := by
  after_results_simp
  rfl

end Tail

/-! ## The four values the last stretch reads, in the reference's terms -/

/-- The sources before the last stretch. -/
theorem w2_v6 (c : Dev nD) :
    W2 m ρ c (Proc.devRef .tc main_v6) = rowK (F := F) (m ((c : Thread nD τ).loc main_arg6)) := by
  show StableHlo.after hostOps0_1 (StableHlo.after hostOps0 (W0 m ρ c)) (Proc.devRef .tc main_v6) = _
  after_results_simp
  simp only [cat2_fold]
  after_results_simp
  rfl

/-- The targets before the last stretch. -/
theorem w2_v9 (c : Dev nD) :
    W2 m ρ c (Proc.devRef .tc main_v9) = colK (F := F) (m ((c : Thread nD τ).loc main_arg6)) := by
  show StableHlo.after hostOps0_1 (StableHlo.after hostOps0 (W0 m ρ c)) (Proc.devRef .tc main_v9) = _
  after_results_simp
  simp only [cat2_fold]
  after_results_simp
  rfl

/-- The raw edge weights before the last stretch. -/
theorem w2_v11 (c : Dev nD) :
    W2 m ρ c (Proc.devRef .tc main_v11)
      = Cert.ReferenceIdeal.ReadP.val_main_v11 (F := F) (m ((c : Thread nD τ).loc main_arg1)) := by
  show StableHlo.after hostOps0_1 (StableHlo.after hostOps0 (W0 m ρ c)) (Proc.devRef .tc main_v11) = _
  after_results_simp
  simp only [cat2_fold]
  after_results_simp
  rfl

/-- The degree normaliser before the last stretch. -/
theorem w2_v18 (c : Dev nD) :
    W2 m ρ c (Proc.devRef .tc main_v18)
      = Cert.ReferenceIdeal.ReadP.val_main_v18 (F := F) (m ((c : Thread nD τ).loc main_arg1)) (m ((c : Thread nD τ).loc main_arg6)) := by
  show StableHlo.after hostOps0_1 (StableHlo.after hostOps0 (W0 m ρ c)) (Proc.devRef .tc main_v18) = _
  after_results_simp
  simp only [cat2_fold]
  after_results_simp
  rfl

/-- The normalised weights from the reference's four values are the reference's normalised weights. -/
theorem norm34_ref (x1 : FVec F S640000x4 .f32) (x6 : IVec S2x640000 32) :
    norm34 (Cert.ReferenceIdeal.ReadP.val_main_v18 (F := F) x1 x6) (rowK (F := F) x6) (colK (F := F) x6)
        (Cert.ReferenceIdeal.ReadP.val_main_v11 (F := F) x1)
      = normK x1 x6 := rfl

/-! ## What the launches find -/

/-- The first launch finds the node features as launched. -/
theorem v3_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results

/-- The first launch finds the transposed weight matrix. -/
theorem v3_v46 (c : Dev nD) :
    V3 m ρ c main_v46 = transpose S128x128 [1, 0] (m ((c : Thread nD τ).loc main_arg2)) transposes_S128x128_S128x128_1_0 := by
  show StableHlo.after hostOps0_2 (StableHlo.after hostOps0_1 (StableHlo.after hostOps0 (W0 m ρ c))) (Proc.devRef .tc main_v46) = _
  after_results

/-- The first launch finds the bias as one row. -/
theorem v3_v47 (c : Dev nD) :
    V3 m ρ c main_v47 = shapeCast S1x128 (m ((c : Thread nD τ).loc main_arg3)) shapeCasts_S128_S1x128 := by
  show StableHlo.after hostOps0_2 (StableHlo.after hostOps0_1 (StableHlo.after hostOps0 (W0 m ρ c))) (Proc.devRef .tc main_v47) = _
  after_results
  rfl

/-- The second launch finds the scale vector as one row. -/
theorem v4_v48 (c : Dev nD) :
    V4 m ρ c main_v48 = shapeCast S1x128 (m ((c : Thread nD τ).loc main_arg4)) shapeCasts_S128_S1x128 := by
  refine (W4_of_ne m ρ c main_v48 (by decide)).trans ?_
  show StableHlo.after hostOps0_2 (StableHlo.after hostOps0_1 (StableHlo.after hostOps0 (W0 m ρ c))) (Proc.devRef .tc main_v48) = _
  after_results
  rfl

/-- The second launch finds the shift vector as one row. -/
theorem v4_v49 (c : Dev nD) :
    V4 m ρ c main_v49 = shapeCast S1x128 (m ((c : Thread nD τ).loc main_arg5)) shapeCasts_S128_S1x128 := by
  refine (W4_of_ne m ρ c main_v49 (by decide)).trans ?_
  show StableHlo.after hostOps0_2 (StableHlo.after hostOps0_1 (StableHlo.after hostOps0 (W0 m ρ c))) (Proc.devRef .tc main_v49) = _
  after_results
  rfl

/-- The second launch finds the first launch's result array. -/
theorem v4_v50 (c : Dev nD) : V4 m ρ c main_v50 = (dat0 (V3 m ρ) c).arrAt 3 cfg0.N := by
  exact W4_arr m ρ c 3

/-- The second launch finds the dense adjacency in the narrow format. -/
theorem v4_v42 (c : Dev nD) :
    V4 m ρ c main_v42
      = truncf .bf16 (adjK (m ((c : Thread nD τ).loc main_arg1)) (m ((c : Thread nD τ).loc main_arg6))) bitsLt_bf16_f32 := by
  refine (W4_of_ne m ρ c main_v42 (by decide)).trans ?_
  refine (tail_v42 (W2 m ρ c)).trans ?_
  rw [w2_v6 m ρ c, w2_v9 m ρ c, w2_v11 m ρ c, w2_v18 m ρ c, norm34_ref]
  rfl

/-- The second launch finds the dense adjacency's remainder against its narrow format, in the narrow format. -/
theorem v4_v45 (c : Dev nD) :
    V4 m ρ c main_v45
      = truncf .bf16
          (subf (adjK (m ((c : Thread nD τ).loc main_arg1)) (m ((c : Thread nD τ).loc main_arg6)))
            (extf .f32 (truncf .bf16 (adjK (m ((c : Thread nD τ).loc main_arg1)) (m ((c : Thread nD τ).loc main_arg6))) bitsLt_bf16_f32) bitsLt_bf16_f32))
          bitsLt_bf16_f32 := by
  refine (W4_of_ne m ρ c main_v45 (by decide)).trans ?_
  refine (tail_v45 (W2 m ρ c)).trans ?_
  rw [w2_v6 m ρ c, w2_v9 m ρ c, w2_v11 m ρ c, w2_v18 m ρ c, norm34_ref]
  rfl

end Cert.KernelIdeal.HostVals

end
-- ==== Proof.Spec.lean ====
import Idealize.ShloMosaic.PureOps.Ideal
import Idealize.ShloMosaic.Lib.ValueIdx

/-!
# The layer as functions of whole arrays, on the extended reals

A graph layer on 10000 nodes with 128 features: a linear map of the node features, an aggregation
of the transformed features along weighted edges into each target node, a leaky rectifier and a
normalisation of each node's 128 features to mean 0 and variance 1, scaled and shifted. Each step
is stated as a function of whole arrays at one index `(p, q)`: node `p`, feature `q`.
-/

open scoped BigOperators
open Idealize.ShloMosaic Idealize.ShloMosaic.ValueIdx

noncomputable section

namespace Cert.Spec

/-- A rank-2 array of extended reals. -/
abbrev Arr (a b : Nat) : Type := (⟨2, ![a, b]⟩ : Shape).Idx → EReal

/-- The linear map: `x · wt + b`, row `p` of `x` against column `q` of `wt`. -/
def lin (x : Arr 10000 128) (wt : Arr 128 128) (b2 : Arr 1 128) (p : Fin 10000) (q : Fin 128) : EReal :=
  (∑ k : Fin 128, x (ix2 p k) * wt (ix2 k q)) + b2 (ix2 (0 : Fin 1) q)

/-- The aggregation through two dense adjacency matrices: row `p` of each against column `q` of the
    features, the two products added. -/
def acc (ahi alo : Arr 10000 10000) (h : Arr 10000 128) (p : Fin 10000) (q : Fin 128) : EReal :=
  (∑ k : Fin 10000, ahi (ix2 p k) * h (ix2 k q)) + (∑ k : Fin 10000, alo (ix2 p k) * h (ix2 k q))

/-- The leaky rectifier: `a` where `a ≥ 0`, else the slope's constant times `a`. -/
def leaky (a : EReal) : EReal :=
  Scalar.select (Ideal.cmp .oge a (Ideal.ofBits .f32 0x00000000#32)) a (Ideal.ofBits .f32 0x3C23D70A#32 * a)

/-- The mean of a row of 128 values: their sum divided by 128. -/
def mean (l : Fin 128 → EReal) : EReal := Ideal.div (∑ k : Fin 128, l k) (Ideal.ofBits .f32 0x43000000#32)

/-- The normalisation of a row at feature `q`: the deviation from the row's mean times the reciprocal
    square root of the row's variance plus ε, scaled by `g` and shifted by `b`. -/
def rowNorm (l : Fin 128 → EReal) (g b : EReal) (q : Fin 128) : EReal :=
  ((l q - mean l) * Ideal.rsqrt (mean (fun k => (l k - mean l) * (l k - mean l)) + Ideal.ofBits .f32 0x3727C5AC#32)) * g + b

/-- The layer's output at `(p, q)` from a row of aggregated features: rectify, then normalise. -/
def out (a : Fin 128 → EReal) (g2 b2 : Arr 1 128) (q : Fin 128) : EReal :=
  rowNorm (fun k => leaky (a k)) (g2 (ix2 (0 : Fin 1) q)) (b2 (ix2 (0 : Fin 1) q)) q

end Cert.Spec

end
-- ==== Proof.Region0.lean ====
import proofs.«421699_j16904991277609_3_alg».proof.Proof.Gen.KernelIdeal.Frame
import proofs.«421699_j16904991277609_3_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The first launch's result array

The first launch walks the node features in five blocks of 2000 rows; at each block it multiplies
the block by the whole transposed weight matrix and adds the bias row. Block `t` of the result is
rows `2000 t … 2000 t + 1999` of the linear map of the whole arrays, the five blocks cover the
10000 rows, and so the result array is the linear map at every index.
-/

set_option maxRecDepth 16384

noncomputable section

namespace Cert.KernelIdeal.Lin

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The left operand's index of the block product at output index `j` and contraction index `q`: row of `j`. -/
theorem lhs_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- Its column is the contraction index. -/
theorem lhs_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
/-- The right operand's index: its row is the contraction index, -/
theorem rhs_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
/-- and its column is the column of `j`. -/
theorem rhs_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product at `(r, q)`: row `r` of the left block against column `q` of the right one. -/
theorem mm_apply (a : FVec Ideal S2000x128 .bf16) (b : FVec Ideal S128x128 .bf16) (r : Fin 2000) (q : Fin 128) :
    FloatOps.matmul dot_S2000x128_S128x128_S2000x128_1_0_0_1_n_n none a b (constant S2000x128 .f32 0x00000000#32) (ix2 r q)
      = ∑ k : Fin 128, a (ix2 r k) * b (ix2 k q) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r q) ((contrEquiv1 dot_S2000x128_S128x128_S2000x128_1_0_0_1_n_n 128 rfl rfl).symm k) = ix2 r k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 r q) ((contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's arithmetic at `(r, q)`: at the extended reals the format changes and the casts to the same shape are
    the identity, the bias row is read at `(0, q)`, and the block product is the sum over the 128 features. -/
theorem pay (x0 : Vec Ideal S2000x128 .f32) (x1 : Vec Ideal S128x128 .f32) (x2 : Vec Ideal S1x128 .f32) (r : Fin 2000) (q : Fin 128) :
    k0_pay1 (F := Ideal) x0 x1 x2 (ix2 r q) = (∑ k : Fin 128, x0 (ix2 r k) * x1 (ix2 k q)) + x2 (ix2 (0 : Fin 1) q) := by
  unfold k0_pay1
  show (truncf .bf16 (addf (matmul dot_S2000x128_S128x128_S2000x128_1_0_0_1_n_n none (truncf .bf16 x0 bitsLt_bf16_f32) (truncf .bf16 (shapeCast S128x128 x1 shapeCasts_S128x128_S128x128) bitsLt_bf16_f32) (constant S2000x128 .f32 0x00000000#32)) (broadcastTo S2000x128 (shapeCast S1x128 x2 shapeCasts_S1x128_S1x128) broadcasts_S1x128_S2000x128)) bitsLt_bf16_f32 : FVec Ideal S2000x128 .bf16) (ix2 r q) = _
  rw [shapeCast_self, shapeCast_self]
  have hb : broadcastTo S2000x128 x2 broadcasts_S1x128_S2000x128 (ix2 r q) = x2 (ix2 (0 : Fin 1) q) :=
    broadcastTo_apply x2 broadcasts_S1x128_S2000x128 (ix2 r q) (ix2 (0 : Fin 1) q) (fun a => match a with
      | ⟨0, _⟩ => by show (0 : Nat) = if (1 : Nat) = 1 then 0 else _; rw [if_pos rfl]
      | ⟨1, _⟩ => by show q.val = if (128 : Nat) = 1 then 0 else _; rw [if_neg (by decide)]; rfl)
  have hm := mm_apply (truncf .bf16 x0 bitsLt_bf16_f32) (truncf .bf16 x1 bitsLt_bf16_f32) r q
  exact congrArg₂ (· + ·) hm hb

variable (V : (c : Dev nD) → (b : Ref sig .tc) → Buf (Elt Ideal) ((c : Thread nD τ).loc b))

/-- The zero offset of a whole-block access. -/
theorem hz : (![0, 0] : Fin 2 → Nat) = fun _ => 0 := funext fun a => by fin_cases a <;> rfl

/-- The linear map of whole arrays at an index of the result array. -/
abbrev G (x : S10000x128.Idx → EReal) (wt : S128x128.Idx → EReal) (b : S1x128.Idx → EReal) : S10000x128.Idx → EReal :=
  fun i => Cert.Spec.lin x wt b ⟨(i 0).val, (i 0).isLt⟩ ⟨(i 1).val, (i 1).isLt⟩

/-- The windows' block indices at each of the five points: the features' block row is the result's, every other block index is 0. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 4 :=
  (by decide +kernel : ∀ t : Fin grid0.N, _)

/-- One point's block of the result, from blocks that are rows `2000 n …` of `x`, all of `wt` and all of `b`. -/
theorem point_value (x : S10000x128.Idx → EReal) (wt : S128x128.Idx → EReal) (b : S1x128.Idx → EReal)
    (x0 : Vec Ideal S2000x128 .f32) (x1 : Vec Ideal S128x128 .f32) (x2 : Vec Ideal S1x128 .f32) (n : Nat)
    (h0 : ∀ (y : S2000x128.Idx) (i : S10000x128.Idx), (i 0).val = n * 2000 + (y 0).val → (i 1).val = (y 1).val → x0 y = x i)
    (h1 : x1 = wt) (h2 : x2 = b)
    (j : S2000x128.Idx) (i : S10000x128.Idx) (hi0 : (i 0).val = n * 2000 + (j 0).val) (hi1 : (i 1).val = (j 1).val) :
    k0_pay1 (F := Ideal) x0 x1 x2 j = G x wt b i := by
  subst h1 h2
  refine (congrArg (k0_pay1 (F := Ideal) x0 x1 x2) (eq_ix2 j)).trans ?_
  refine (pay x0 x1 x2 (j 0) (j 1)).trans ?_
  have hq : (j 1 : Fin 128) = (⟨(i 1).val, (i 1).isLt⟩ : Fin 128) := Fin.ext hi1.symm
  show (∑ k : Fin 128, x0 (ix2 (j 0) k) * x1 (ix2 k (j 1))) + x2 (ix2 (0 : Fin 1) (j 1)) = (∑ k : Fin 128, x (ix2 (⟨(i 0).val, (i 0).isLt⟩ : Fin 10000) k) * x1 (ix2 k (⟨(i 1).val, (i 1).isLt⟩ : Fin 128))) + x2 (ix2 (0 : Fin 1) (⟨(i 1).val, (i 1).isLt⟩ : Fin 128))
  rw [hq]
  refine congrArg (· + _) (Finset.sum_congr rfl fun k _ => congrArg (· * _) ?_)
  exact h0 _ _ hi0 rfl

/-- Window 0's block at point `t` is rows `2000 n … 2000 n + 1999` of the node features, `n` the result's block row. -/
theorem iblk_x (c : Dev nD) (t : Fin cfg0.N) (y : S2000x128.Idx) (i : S10000x128.Idx)
    (h0 : (i 0).val = win0_3.index t (0 : Fin 2) * 2000 + (y 0).val) (h1 : (i 1).val = (y 1).val) :
    (iblk0 (F := Ideal) V c 0 t : Vec Ideal S2000x128 .f32) y = (V c main_arg0 : S10000x128.Idx → EReal) i := by
  obtain ⟨e0, e1, e2, e3, e4, e5, e6, e7⟩ := idx_facts t
  unfold iblk0
  rw [View.read_apply]
  show V c main_arg0 _ = V c main_arg0 _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- Window 1's block at every point is the whole weight matrix. -/
theorem iblk_w (c : Dev nD) (t : Fin cfg0.N) :
    (iblk0 (F := Ideal) V c 1 t : Vec Ideal S128x128 .f32) = (V c main_v46 : S128x128.Idx → EReal) := by
  obtain ⟨e0, e1, e2, e3, e4, e5, e6, e7⟩ := idx_facts t
  funext y
  unfold iblk0
  rw [View.read_apply]
  show V c main_v46 _ = V c main_v46 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- Window 2's block at every point is the whole bias row. -/
theorem iblk_b (c : Dev nD) (t : Fin cfg0.N) :
    (iblk0 (F := Ideal) V c 2 t : Vec Ideal S1x128 .f32) = (V c main_v47 : S1x128.Idx → EReal) := by
  obtain ⟨e0, e1, e2, e3, e4, e5, e6, e7⟩ := idx_facts t
  funext y
  unfold iblk0
  rw [View.read_apply]
  show V c main_v47 _ = V c main_v47 _
  congr 1
  funext a
  apply Fin.ext
  match a with
  | ⟨0, _⟩ => show win0_2.index t (0 : Fin 2) * 1 + 1 * (y 0).val = (y 0).val; rw [e4]; omega
  | ⟨1, _⟩ => show win0_2.index t (1 : Fin 2) * 128 + 1 * (y 1).val = (y 1).val; rw [e5]; omega

/-- What point `t` writes back is block `t` of the linear map of the arrays the launch found. -/
theorem flushed_eq (c : Dev nD) (t : Fin cfg0.N) :
    (dat0 (F := Ideal) V c).flushed 3 t = ((cfg0.win 3).blk t).view.read (Elt Ideal) (G (V c main_arg0) (V c main_v46) (V c main_v47)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S1x128) hz]
  obtain ⟨e0, e1, e2, e3, e4, e5, e6, e7⟩ := idx_facts t
  funext j
  rw [View.read_apply]
  refine point_value (V c main_arg0) (V c main_v46) (V c main_v47) (iblk0 V c 0 t) (iblk0 V c 1 t) (iblk0 V c 2 t)
    (win0_3.index t (0 : Fin 2)) (fun y i h0 h1 => iblk_x V c t y i h0 h1) (iblk_w V c t) (iblk_b V c t) j
    (((cfg0.win 3).blk t).view.emb j) ?_ ?_
  · show win0_3.index t (0 : Fin 2) * 2000 + 1 * (j 0).val = win0_3.index t (0 : Fin 2) * 2000 + (j 0).val
    omega
  · show win0_3.index t (1 : Fin 2) * 128 + 1 * (j 1).val = (j 1).val
    rw [e6]; omega

/-- An index of the result array is in point `t`'s block iff each coordinate is in the block's range on its axis. -/
theorem mem_blk (t : Fin cfg0.N) (i : S10000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v50).slice (win0_3.rect t)).set ↔ _
  rw [View.set_slice_whole, Rect.mem_set_unit]
  exact Iff.rfl

/-- Every one of the five block rows is some point's. -/
theorem idx_onto : ∀ q0 : Fin 5, ∃ t : Fin cfg0.N, win0_3.index t = ![q0.val, 0] :=
  (by decide +kernel : ∀ q0 : Fin 5, ∃ t : Fin grid0.N, win0_3.index t = ![q0.val, 0])

/-- The five blocks of 2000 rows cover the 10000 rows: row `p` is in block `p / 2000`. -/
theorem cover (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- So the result array ends holding the linear map at every index. -/
theorem final0 (c : Dev nD) :
    (dat0 (F := Ideal) V c).arrAt 3 cfg0.N = G (V c main_arg0) (V c main_v46) (V c main_v47) :=
  (dat0 (F := Ideal) V c).arrAt_eq_of_cover 3 (G (V c main_arg0) (V c main_v46) (V c main_v47)) (fun t _ => flushed_eq V c t) cover

/-- After the first launch its result array holds the linear map of the arrays the launch found. -/
theorem region0_value (c : Dev nD) :
    (dat0 (F := Ideal) V c).arrAt 3 cfg0.N
      = fun i => Cert.Spec.lin (V c main_arg0) (V c main_v46) (V c main_v47) ⟨(i 0).val, (i 0).isLt⟩ ⟨(i 1).val, (i 1).isLt⟩ :=
  final0 V c

end Cert.KernelIdeal.Lin

end
-- ==== Proof.Region1.lean ====
import proofs.«421699_j16904991277609_3_alg».proof.Proof.Gen.KernelIdeal.Frame
import proofs.«421699_j16904991277609_3_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The second launch's result array

The second launch walks the two dense adjacency matrices in 25 blocks of 400 rows; at each block it
multiplies each matrix's block by the whole feature table, adds the two products, rectifies, and
normalises each of the 400 rows. Block `t` of the result is rows `400 t … 400 t + 399` of one
function of the whole arrays, the 25 blocks cover the 10000 rows, and so the result array is that
function at every index.
-/

set_option maxRecDepth 16384

open scoped BigOperators

noncomputable section

namespace Cert.KernelIdeal.Agg

open Cert.KernelIdeal Cert.KernelIdeal.Gen Idealize.ShloMosaic Idealize.ShloMosaic.TcCoe Idealize.SL.Sem
open Idealize.ShloMosaic.ValueIdx
open Idealize.ShloMosaic.Pipeline (Dat)

/-! ## Two layout operations read at an index: a vector kept as a column, a column spread over rows -/

section Layout
variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The contraction of a 400 × 10000 block with the 10000 × 128 table, at an index -/

theorem lhs_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- A block of 400 matrix rows times the feature table, into a zero accumulator: at `(p, q)` the sum over the
    10000 sources `k` of the block's `(p, k)` times the table's `(k, q)`. -/
theorem matmul_at (l : FVec Ideal S400x10000 .bf16) (r : FVec Ideal S10000x128 .bf16) (p : Fin 400) (q : Fin 128) :
    matmul dot_S400x10000_S10000x128_S400x128_1_0_0_1_n_n none l r (constant (F := Ideal) S400x128 .f32 0x00000000#32) (ix2 p q)
      = ∑ k : Fin 10000, l (ix2 p k) * r (ix2 k q) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhs_0 _ _
    | ⟨1, _⟩ => exact (lhs_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhs_0 _ _).trans hk
    | ⟨1, _⟩ => exact rhs_1 _ _)
  rw [el, er]

/-- The reciprocal square root of a vector reads entry by entry. -/
theorem rsqrt_apply {s : Shape} (x : FVec Ideal s .f32) (i : s.Idx) : rsqrt x i = Ideal.rsqrt (x i) := rfl

/-! ## The body's arithmetic, stage by stage -/

/-- The two products of a block of each matrix with the feature table, added. -/
def accV (h : FVec Ideal S10000x128 .bf16) (ahi alo : FVec Ideal S400x10000 .bf16) : FVec Ideal S400x128 .f32 :=
  addf (matmul dot_S400x10000_S10000x128_S400x128_1_0_0_1_n_n none ahi h (constant (F := Ideal) S400x128 .f32 0x00000000#32))
    (matmul dot_S400x10000_S10000x128_S400x128_1_0_0_1_n_n none alo h (constant (F := Ideal) S400x128 .f32 0x00000000#32))

/-- The leaky rectifier on a block. -/
def lkV (a : FVec Ideal S400x128 .f32) : FVec Ideal S400x128 .f32 :=
  select (cmpf .oge a (broadcast S400x128 (Scalar.ofBits (F := Ideal) .f32 0x00000000#32))) a
    (mulf (broadcast S400x128 (Scalar.ofBits (F := Ideal) .f32 0x3C23D70A#32)) a)

/-- The row means of a block, as a column. -/
def meanV (l : FVec Ideal S400x128 .f32) : FVec Ideal S400x1 .f32 :=
  divf (shapeCast S400x1 (multiReduction (F := Ideal) .add [1] S400 l 0x00000000#32 reduces_S400x128_S400 (.inl rfl) rfl) shapeCasts_S400_S400x1)
    (broadcast S400x1 (Scalar.ofBits (F := Ideal) .f32 0x43000000#32))

/-- The normalisation of a rectified block. -/
def normV (l : FVec Ideal S400x128 .f32) (g2 b2 : FVec Ideal S1x128 .f32) : FVec Ideal S400x128 .f32 :=
  addf
    (mulf
      (mulf (subf l (broadcastTo S400x128 (meanV l) broadcasts_S400x1_S400x128))
        (broadcastTo S400x128
          (rsqrt (addf (meanV (mulf (subf l (broadcastTo S400x128 (meanV l) broadcasts_S400x1_S400x128))
                                   (subf l (broadcastTo S400x128 (meanV l) broadcasts_S400x1_S400x128))))
                   (broadcast S400x1 (Scalar.ofBits (F := Ideal) .f32 0x3727C5AC#32))))
          broadcasts_S400x1_S400x128))
      (broadcastTo S400x128 g2 broadcasts_S1x128_S400x128))
    (broadcastTo S400x128 b2 broadcasts_S1x128_S400x128)

/-- The body's stored value is those stages composed (the casts to the same shape are the identity). -/
theorem pay_eq (h : FVec Ideal S10000x128 .bf16) (ahi alo : FVec Ideal S400x10000 .bf16) (g2 b2 : FVec Ideal S1x128 .f32) :
    k1_pay1 (F := Ideal) h ahi alo g2 b2 = normV (lkV (accV h ahi alo)) g2 b2 := by
  unfold k1_pay1 normV lkV accV meanV
  simp only [shapeCast_self]

theorem accV_apply (h : FVec Ideal S10000x128 .bf16) (ahi alo : FVec Ideal S400x10000 .bf16) (r : Fin 400) (k : Fin 128) :
    accV h ahi alo (ix2 r k) = (∑ j : Fin 10000, ahi (ix2 r j) * h (ix2 j k)) + (∑ j : Fin 10000, alo (ix2 r j) * h (ix2 j k)) := by
  unfold accV
  rw [addf_apply, matmul_at, matmul_at]

theorem lkV_apply (a : FVec Ideal S400x128 .f32) (i : S400x128.Idx) : lkV a i = Cert.Spec.leaky (a i) := rfl

theorem meanV_apply (l : FVec Ideal S400x128 .f32) (r : Fin 400) (u : Fin 1) :
    meanV l (ix2 r u) = Cert.Spec.mean (fun k => l (ix2 r k)) := by
  unfold meanV Cert.Spec.mean
  rw [divf_apply, shapeCast_a_a1_apply, broadcast_apply]
  refine congrArg (fun s => Ideal.div s _) ?_
  refine (Ideal.multiReduction_add_single l 0x00000000#32 reduces_S400x128_S400 (.inl rfl) rfl (ix1 r)).trans ?_
  refine Finset.sum_congr rfl fun k _ => ?_
  exact congrArg l (funext fun a => Fin.ext (by match a with | ⟨0, _⟩ => rfl | ⟨1, _⟩ => rfl))

theorem normV_apply (l : FVec Ideal S400x128 .f32) (g2 b2 : FVec Ideal S1x128 .f32) (r : Fin 400) (q : Fin 128) :
    normV l g2 b2 (ix2 r q) = Cert.Spec.rowNorm (fun k => l (ix2 r k)) (g2 (ix2 (0 : Fin 1) q)) (b2 (ix2 (0 : Fin 1) q)) q := by
  unfold normV Cert.Spec.rowNorm
  simp only [addf_apply, mulf_apply, subf_apply, rsqrt_apply, broadcast_apply, broadcastTo_1b_ab_apply, broadcastTo_a1_ab_apply,
    meanV_apply]
  rfl

/-- THE BODY AT `(r, q)`: from a block of 400 rows of each matrix, the whole feature table and the two parameter rows,
    the stored value is the rectified and normalised row `r` of the two products' sum, at feature `q`. -/
theorem pay (h : FVec Ideal S10000x128 .bf16) (ahi alo : FVec Ideal S400x10000 .bf16) (g2 b2 : FVec Ideal S1x128 .f32)
    (r : Fin 400) (q : Fin 128) :
    k1_pay1 (F := Ideal) h ahi alo g2 b2 (ix2 r q)
      = Cert.Spec.out (fun k => (∑ j : Fin 10000, ahi (ix2 r j) * h (ix2 j k)) + (∑ j : Fin 10000, alo (ix2 r j) * h (ix2 j k)))
          g2 b2 q := by
  rw [pay_eq, normV_apply]
  unfold Cert.Spec.out
  simp only [lkV_apply, accV_apply]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 points: the two matrix windows and the result window sit at block row
    `t`; the feature table and the two parameter rows are one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 25 := by
  have h1 := t.isLt
  have h2 : cfg1.N = 25 := N_1
  omega

/-- The arrays the launch finds, at their literal types. -/
abbrev ahiA (c : Dev nD) : S10000x10000.Idx → EReal := V c main_v42
abbrev aloA (c : Dev nD) : S10000x10000.Idx → EReal := V c main_v45
abbrev hA (c : Dev nD) : S10000x128.Idx → EReal := V c main_v50
abbrev gA (c : Dev nD) : S1x128.Idx → EReal := V c main_v48
abbrev bA (c : Dev nD) : S1x128.Idx → EReal := V c main_v49

/-- The windows' blocks at a point, at their literal types. -/
abbrev ahiB (c : Dev nD) (t : Fin cfg1.N) : FVec Ideal S400x10000 .bf16 := iblk1 V c 0 t
abbrev aloB (c : Dev nD) (t : Fin cfg1.N) : FVec Ideal S400x10000 .bf16 := iblk1 V c 1 t
abbrev hB (c : Dev nD) (t : Fin cfg1.N) : FVec Ideal S10000x128 .bf16 := iblk1 V c 2 t
abbrev gB (c : Dev nD) (t : Fin cfg1.N) : FVec Ideal S1x128 .f32 := iblk1 V c 3 t
abbrev bB (c : Dev nD) (t : Fin cfg1.N) : FVec Ideal S1x128 .f32 := iblk1 V c 4 t

/-- Block `t` of the first matrix is its rows `400 t … 400 t + 399`. -/
theorem ahiB_apply (c : Dev nD) (t : Fin cfg1.N) (r : Fin 400) (j : Fin 10000) :
    ahiB V c t (ix2 r j) = ahiA V c (ix2 (⟨t.val * 400 + r.val, by have := t_lt t; omega⟩ : Fin 10000) j) := by
  show ahiA V c (((cfg1.win 0).blk t).view.emb (ix2 r j)) = _
  refine congrArg (ahiA V c) (funext fun a => Fin.ext ?_)
  obtain ⟨e0, e1, -⟩ := idx_facts t
  match a with
  | ⟨0, _⟩ => show win1_0.index t (0 : Fin 2) * 400 + 1 * r.val = t.val * 400 + r.val; omega
  | ⟨1, _⟩ => show win1_0.index t (1 : Fin 2) * 10000 + 1 * j.val = j.val; omega

/-- Block `t` of the second matrix is its rows `400 t … 400 t + 399`. -/
theorem aloB_apply (c : Dev nD) (t : Fin cfg1.N) (r : Fin 400) (j : Fin 10000) :
    aloB V c t (ix2 r j) = aloA V c (ix2 (⟨t.val * 400 + r.val, by have := t_lt t; omega⟩ : Fin 10000) j) := by
  show aloA V c (((cfg1.win 1).blk t).view.emb (ix2 r j)) = _
  refine congrArg (aloA V c) (funext fun a => Fin.ext ?_)
  obtain ⟨-, -, e0, e1, -⟩ := idx_facts t
  match a with
  | ⟨0, _⟩ => show win1_1.index t (0 : Fin 2) * 400 + 1 * r.val = t.val * 400 + r.val; omega
  | ⟨1, _⟩ => show win1_1.index t (1 : Fin 2) * 10000 + 1 * j.val = j.val; omega

/-- The feature table's one block is the table. -/
theorem hB_apply (c : Dev nD) (t : Fin cfg1.N) (j : Fin 10000) (k : Fin 128) :
    hB V c t (ix2 j k) = hA V c (ix2 j k) := by
  show hA V c (((cfg1.win 2).blk t).view.emb (ix2 j k)) = _
  refine congrArg (hA V c) (funext fun a => Fin.ext ?_)
  obtain ⟨-, -, -, -, e0, e1, -⟩ := idx_facts t
  match a with
  | ⟨0, _⟩ => show win1_2.index t (0 : Fin 2) * 10000 + 1 * j.val = j.val; omega
  | ⟨1, _⟩ => show win1_2.index t (1 : Fin 2) * 128 + 1 * k.val = k.val; omega

/-- The scale row's one block is the row. -/
theorem gB_apply (c : Dev nD) (t : Fin cfg1.N) (u : Fin 1) (k : Fin 128) :
    gB V c t (ix2 u k) = gA V c (ix2 u k) := by
  show gA V c (((cfg1.win 3).blk t).view.emb (ix2 u k)) = _
  refine congrArg (gA V c) (funext fun a => Fin.ext ?_)
  obtain ⟨-, -, -, -, -, -, e0, e1, -⟩ := idx_facts t
  match a with
  | ⟨0, _⟩ => show win1_3.index t (0 : Fin 2) * 1 + 1 * u.val = u.val; omega
  | ⟨1, _⟩ => show win1_3.index t (1 : Fin 2) * 128 + 1 * k.val = k.val; omega

/-- The shift row's one block is the row. -/
theorem bB_apply (c : Dev nD) (t : Fin cfg1.N) (u : Fin 1) (k : Fin 128) :
    bB V c t (ix2 u k) = bA V c (ix2 u k) := by
  show bA V c (((cfg1.win 4).blk t).view.emb (ix2 u k)) = _
  refine congrArg (bA V c) (funext fun a => Fin.ext ?_)
  obtain ⟨-, -, -, -, -, -, -, -, e0, e1, -⟩ := idx_facts t
  match a with
  | ⟨0, _⟩ => show win1_4.index t (0 : Fin 2) * 1 + 1 * u.val = u.val; omega
  | ⟨1, _⟩ => show win1_4.index t (1 : Fin 2) * 128 + 1 * k.val = k.val; omega

/-- The whole-array function the result array ends at. -/
def G (c : Dev nD) : S10000x128.Idx → EReal := fun i =>
  Cert.Spec.out (fun k => Cert.Spec.acc (ahiA V c) (aloA V c) (hA V c) ⟨(i 0).val, (i 0).isLt⟩ k) (gA V c) (bA V c) ⟨(i 1).val, (i 1).isLt⟩

/-- WHAT POINT `t` WRITES BACK is block `t` of `G`. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S10000x128) hz, View.ld_unit_zero (S := S400x10000) hz, View.ld_unit_zero (S := S1x128) hz]
  funext j
  obtain ⟨r, q, rfl⟩ : ∃ (r : Fin 400) (q : Fin 128), j = ix2 r q := ⟨j 0, j 1, eq_ix2 j⟩
  show k1_pay1 (F := Ideal) (hB V c t) (ahiB V c t) (aloB V c t) (gB V c t) (bB V c t) (ix2 r q)
    = G V c (((cfg1.win 5).blk t).view.emb (ix2 r q))
  rw [pay]
  obtain ⟨-, -, -, -, -, -, -, -, -, -, e0, e1⟩ := idx_facts t
  have hemb : ((cfg1.win 5).blk t).view.emb (ix2 r q) = ix2 (⟨t.val * 400 + r.val, by have := t_lt t; omega⟩ : Fin 10000) q := by
    funext a; apply Fin.ext
    match a with
    | ⟨0, _⟩ => show win1_5.index t (0 : Fin 2) * 400 + 1 * r.val = t.val * 400 + r.val; omega
    | ⟨1, _⟩ => show win1_5.index t (1 : Fin 2) * 128 + 1 * q.val = q.val; omega
  rw [hemb]
  unfold G Cert.Spec.out Cert.Spec.acc
  simp only [ahiB_apply, aloB_apply, hB_apply, gB_apply, bB_apply]

/-- An index of the array is in point `t`'s block iff each coordinate is in the block's range on its axis. -/
theorem mem_blk (t : Fin cfg1.N) (i : S10000x128.Idx) :
    i ∈ ((cfg1.win 5).blk t).view.set ↔ ∀ a : Fin 2, win1_5.index t a * S400x128.size a ≤ (i a).val ∧ (i a).val < win1_5.index t a * S400x128.size a + S400x128.size a := by
  show i ∈ ((View.whole main_v51).slice (win1_5.rect t)).set ↔ _
  rw [View.set_slice_whole, Rect.mem_set_unit]
  exact Iff.rfl

/-- Every index of the array is in some point's block: row `p` is in block `p / 400`. -/
theorem cover (i : S10000x128.Idx) :
    ∃ t : Fin cfg1.N, (cfg1.win 5).flush t = true ∧ i ∈ ((cfg1.win 5).blk t).view.set := by
  have hi0 : (i 0).val < 10000 := (i 0).isLt
  have hi1 : (i 1).val < 128 := (i 1).isLt
  refine ⟨⟨(i 0).val / 400, by rw [show cfg1.N = 25 from N_1]; omega⟩, flush1_5 _, ?_⟩
  rw [mem_blk]
  obtain ⟨-, -, -, -, -, -, -, -, -, -, e0, e1⟩ := idx_facts ⟨(i 0).val / 400, by rw [show cfg1.N = 25 from N_1]; omega⟩
  intro a
  match a with
  | ⟨0, _⟩ =>
    show win1_5.index _ (0 : Fin 2) * 400 ≤ (i 0).val ∧ (i 0).val < win1_5.index _ (0 : Fin 2) * 400 + 400
    rw [e0]; show (i 0).val / 400 * 400 ≤ (i 0).val ∧ (i 0).val < (i 0).val / 400 * 400 + 400; omega
  | ⟨1, _⟩ =>
    show win1_5.index _ (1 : Fin 2) * 128 ≤ (i 1).val ∧ (i 1).val < win1_5.index _ (1 : Fin 2) * 128 + 128
    rw [e1]; omega

/-- After the second launch its result array holds, at node `p` and feature `q`, the rectified and
    normalised row `p` of the aggregation through the two matrices the launch found. -/
theorem region1_value (c : Dev nD) :
    (dat1 (F := Ideal) V c).arrAt 5 cfg1.N
      = fun i => Cert.Spec.out (fun k => Cert.Spec.acc (V c main_v42) (V c main_v45) (V c main_v50) ⟨(i 0).val, (i 0).isLt⟩ k)
          (V c main_v48) (V c main_v49) ⟨(i 1).val, (i 1).isLt⟩ :=
  (dat1 (F := Ideal) V c).arrAt_eq_of_cover 5 (G V c) (fun t _ => flushed_eq V c t) (cover)

end Cert.KernelIdeal.Agg

end
-- ==== Proof.RefTail.lean ====
import proofs.«421699_j16904991277609_3_alg».proof.Proof.RefRead
import proofs.«421699_j16904991277609_3_alg».proof.Proof.Spec
import Idealize.ShloMosaic.Lib.ValueIdx
import Idealize.ShloMosaic.PureOps.Ideal.Laws

/-!
# The reference's last stages, read at an index

From the array of aggregated features on, the reference rectifies every entry, then normalises each
node's row of 128 features (mean, variance, reciprocal square root) and scales and shifts it by the
two parameter vectors. Read at node `p` and feature `q`, that chain is the rectify-and-normalise
function of row `p` of the aggregated features.

The chain is read one stage at a time. Every stage is an elementwise operation, a broadcast or a
row sum, so its element at an index is a function of its operands' elements at indices computed
from that index; the index functions are identified with the coordinate constructors first.
-/

open scoped BigOperators

noncomputable section

namespace Cert.ReferenceIdeal.RefTail

open Cert.ReferenceIdeal Cert.ReferenceIdeal.Gen Cert.ReferenceIdeal.ReadP
open Idealize.ShloMosaic Idealize.ShloMosaic.TcCoe Idealize.ShloMosaic.ValueIdx

/-! ## The index functions at coordinates -/

/-- The first row sum reads row `p` at position `k`. -/
theorem idx58 (p : Fin 10000) (k : Fin 128) : idx_main_v58 (ix1 p) k = ix2 p k :=
  funext fun a => Fin.ext (by match a with | ⟨0, _⟩ => rfl | ⟨1, _⟩ => rfl)

/-- The second row sum reads row `p` at position `k`. -/
theorem idx65 (p : Fin 10000) (k : Fin 128) : idx_main_v65 (ix1 p) k = ix2 p k :=
  funext fun a => Fin.ext (by match a with | ⟨0, _⟩ => rfl | ⟨1, _⟩ => rfl)

/-- A vector of row values made a column is read at the row. -/
theorem idx59 (p : Fin 10000) : idx_main_v59 (ix2 p (0 : Fin 1)) = ix1 p :=
  funext fun a => Fin.ext (by match a with | ⟨0, _⟩ => rfl)

theorem idx66 (p : Fin 10000) : idx_main_v66 (ix2 p (0 : Fin 1)) = ix1 p :=
  funext fun a => Fin.ext (by match a with | ⟨0, _⟩ => rfl)

/-- A column broadcast along the features is read at the row's one entry. -/
theorem idx62 (p : Fin 10000) (k : Fin 128) : idx_main_v62 (ix2 p k) = ix2 p (0 : Fin 1) :=
  funext fun a => Fin.ext (by match a with | ⟨0, _⟩ => rfl | ⟨1, _⟩ => rfl)

theorem idx69 (p : Fin 10000) (k : Fin 128) : idx_main_v69 (ix2 p k) = ix2 p (0 : Fin 1) :=
  funext fun a => Fin.ext (by match a with | ⟨0, _⟩ => rfl | ⟨1, _⟩ => rfl)

theorem idx74 (p : Fin 10000) (k : Fin 128) : idx_main_v74 (ix2 p k) = ix2 p (0 : Fin 1) :=
  funext fun a => Fin.ext (by match a with | ⟨0, _⟩ => rfl | ⟨1, _⟩ => rfl)

/-- A parameter vector made a row and broadcast along the nodes is read at the feature. -/
theorem idx76 (p : Fin 10000) (q : Fin 128) : idx_main_v76 (idx_main_v77 (ix2 p q)) = ix1 q :=
  funext fun a => Fin.ext (by match a with | ⟨0, _⟩ => rfl)

theorem idx79 (p : Fin 10000) (q : Fin 128) : idx_main_v79 (idx_main_v80 (ix2 p q)) = ix1 q :=
  funext fun a => Fin.ext (by match a with | ⟨0, _⟩ => rfl)

/-! ## The stages at coordinates -/

section Stages

variable (x0 : (⟨S10000x128, .f32⟩ : BufTy).Contents (Elt Ideal)) (x1 : (⟨S640000x4, .f32⟩ : BufTy).Contents (Elt Ideal))
  (x2 : (⟨S128x128, .f32⟩ : BufTy).Contents (Elt Ideal)) (x3 : (⟨S128, .f32⟩ : BufTy).Contents (Elt Ideal))
  (x6 : (⟨S2x640000, .i32⟩ : BufTy).Contents (Elt Ideal))

/-- The aggregated features `%52`. -/
local notation "agg" => val_main_v52 (F := Ideal) x0 x1 x2 x3 x6

/-- The rectified array `%57` is the leaky rectifier of the aggregated features, entry by entry. -/
theorem v57_at (i : S10000x128.Idx) :
    val_main_v57 (F := Ideal) x0 x1 x2 x3 x6 i = Spec.leaky (agg i) := by
  rw [val_main_v57_apply, val_main_v54_apply, val_main_v56_apply, val_main_v53_apply, val_main_v55_apply,
    val_main_cst_9_apply, val_main_cst_10_apply]
  rfl

/-- The row sum `%58` at node `p`: the initial value is zero. -/
theorem v58_at (p : Fin 10000) :
    val_main_v58 (F := Ideal) x0 x1 x2 x3 x6 (ix1 p) = ∑ k : Fin 128, Spec.leaky (agg (ix2 p k)) := by
  rw [val_main_v58_apply, val_main_cst_11_apply, Ideal.ofBits_def, Ideal.ofBits_zero_f32, zero_add]
  exact Finset.sum_congr rfl fun k _ => by rw [idx58, v57_at]

/-- The row mean `%61` at node `p`. -/
theorem v61_at (p : Fin 10000) :
    val_main_v61 (F := Ideal) x0 x1 x2 x3 x6 (ix2 p (0 : Fin 1))
      = Spec.mean (fun k => Spec.leaky (agg (ix2 p k))) := by
  rw [val_main_v61_apply, val_main_v59_apply, val_main_v60_apply, val_main_cst_12_apply, idx59, v58_at]
  rfl

/-- The deviation from the row mean `%63` at `(p, k)`. -/
theorem v63_at (p : Fin 10000) (k : Fin 128) :
    val_main_v63 (F := Ideal) x0 x1 x2 x3 x6 (ix2 p k)
      = Spec.leaky (agg (ix2 p k)) - Spec.mean (fun k => Spec.leaky (agg (ix2 p k))) := by
  rw [val_main_v63_apply, val_main_v62_apply, idx62, v61_at, v57_at]
  rfl

/-- The same deviation computed a second time, `%70`. -/
theorem v70_at (p : Fin 10000) (k : Fin 128) :
    val_main_v70 (F := Ideal) x0 x1 x2 x3 x6 (ix2 p k)
      = Spec.leaky (agg (ix2 p k)) - Spec.mean (fun k => Spec.leaky (agg (ix2 p k))) := by
  rw [val_main_v70_apply, val_main_v69_apply, idx69, v61_at, v57_at]
  rfl

/-- The sum of squared deviations `%65` at node `p`. -/
theorem v65_at (p : Fin 10000) :
    val_main_v65 (F := Ideal) x0 x1 x2 x3 x6 (ix1 p)
      = ∑ k : Fin 128, (Spec.leaky (agg (ix2 p k)) - Spec.mean (fun k => Spec.leaky (agg (ix2 p k))))
          * (Spec.leaky (agg (ix2 p k)) - Spec.mean (fun k => Spec.leaky (agg (ix2 p k)))) := by
  rw [val_main_v65_apply, val_main_cst_13_apply, Ideal.ofBits_def, Ideal.ofBits_zero_f32, zero_add]
  refine Finset.sum_congr rfl fun k _ => ?_
  rw [idx65, val_main_v64_apply, v63_at]
  rfl

/-- The row variance `%68` at node `p`. -/
theorem v68_at (p : Fin 10000) :
    val_main_v68 (F := Ideal) x0 x1 x2 x3 x6 (ix2 p (0 : Fin 1))
      = Spec.mean (fun k => (Spec.leaky (agg (ix2 p k)) - Spec.mean (fun k => Spec.leaky (agg (ix2 p k))))
          * (Spec.leaky (agg (ix2 p k)) - Spec.mean (fun k => Spec.leaky (agg (ix2 p k))))) := by
  rw [val_main_v68_apply, val_main_v66_apply, val_main_v67_apply, val_main_cst_14_apply, idx66, v65_at]
  rfl

/-- The reciprocal square root of the variance plus ε, `%73`, at node `p`. -/
theorem v73_at (p : Fin 10000) :
    val_main_v73 (F := Ideal) x0 x1 x2 x3 x6 (ix2 p (0 : Fin 1))
      = Ideal.rsqrt (Spec.mean (fun k => (Spec.leaky (agg (ix2 p k)) - Spec.mean (fun k => Spec.leaky (agg (ix2 p k))))
          * (Spec.leaky (agg (ix2 p k)) - Spec.mean (fun k => Spec.leaky (agg (ix2 p k))))) + Ideal.ofBits .f32 0x3727C5AC#32) := by
  rw [val_main_v73_apply, val_main_v72_apply, val_main_v71_apply, val_main_cst_15_apply, v68_at]
  rfl

end Stages

/-- The reference's result at `(p, q)` is the rectified and normalised row `p` of its aggregated
    features `%52`, scaled by `gamma q` and shifted by `beta q`. -/
theorem tail_apply (x0 : (⟨S10000x128, .f32⟩ : BufTy).Contents (Elt Ideal)) (x1 : (⟨S640000x4, .f32⟩ : BufTy).Contents (Elt Ideal))
    (x2 : (⟨S128x128, .f32⟩ : BufTy).Contents (Elt Ideal)) (x3 x4 x5 : (⟨S128, .f32⟩ : BufTy).Contents (Elt Ideal))
    (x6 : (⟨S2x640000, .i32⟩ : BufTy).Contents (Elt Ideal)) (p : Fin 10000) (q : Fin 128) :
    val_main_v81 (F := Ideal) x0 x1 x2 x3 x4 x5 x6 (ix2 p q)
      = Cert.Spec.out (fun k => val_main_v52 (F := Ideal) x0 x1 x2 x3 x6 (ix2 p k))
          (fun i => x4 (ix1 ⟨(i 1).val, (i 1).isLt⟩)) (fun i => x5 (ix1 ⟨(i 1).val, (i 1).isLt⟩)) q := by
  rw [val_main_v81_apply, val_main_v78_apply, val_main_v80_apply, val_main_v79_apply, val_main_v75_apply,
    val_main_v77_apply, val_main_v76_apply, val_main_v74_apply, idx74, idx76, idx79, v70_at, v73_at]
  rfl

end Cert.ReferenceIdeal.RefTail

end
-- ==== Proof.LibScatterRows.lean ====
import Mathlib.Data.EReal.Basic
import Mathlib.Algebra.BigOperators.Group.Finset.Basic
import Idealize.ShloMosaic.PureOps.Ideal
import Idealize.ShloMosaic.Lib.ValueIdx
import Idealize.ShloMosaic.Lib.StableHlo.Predicate

/-!
# Row scatters and row gathers read at an index

A scatter whose indices are an [n × 1] column of row numbers adds update row `e` onto operand row
`idx e` (read signed; a row number outside the operand drops the update), and a gather whose start
indices are such a column reads operand row `idx e` (read signed and clamped into the operand).
Read at one element, each is a sum, or a single read, over the positions `e` of the column.
-/

open scoped BigOperators
open Idealize.ShloMosaic Idealize.ShloMosaic.ValueIdx Idealize.ShloMosaic.StableHlo.Predicate

noncomputable section

namespace Cert.ScatterRows

/-- An entry of a one-element list is that element. -/
theorem getElem_of_eq_singleton {α : Type} (l : List α) (a : α) (k : Nat) (h : k < l.length) (hl : l = [a]) :
    l[k] = a := by
  subst hl
  have hk : k = 0 := by simpa using h
  subst hk; rfl

section Vec
variable {N n w : Nat} (d : ScatterDims ⟨1, ![N]⟩ ⟨2, ![n, 1]⟩ ⟨1, ![n]⟩)

/-- The scatter-indices position an update entry reads: row `j 0` of the column. -/
theorem vec_siIdx (hsd : d.scatterDimsToOperandDims = [0]) (hivd : d.indexVectorDim = 1)
    (j : (⟨1, ![n]⟩ : Shape).Idx) (c : Fin d.scatterDimsToOperandDims.length) :
    d.siIdx j c = ixP (j 0) := by
  funext b
  match b with
  | ⟨0, _⟩ =>
    unfold ScatterDims.siIdx
    rw [dif_neg (by rw [hivd]; simp)]
    unfold ScatterDims.siCoord
    apply Fin.ext
    simp only [Fin.val_cast]
    -- the updates have one axis, so whichever of their axes is read it is that one
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- The window starts at the update's position, read signed. -/
theorem vec_start0 (hsd : d.scatterDimsToOperandDims = [0]) (hivd : d.indexVectorDim = 1)
    (j : (⟨1, ![n]⟩ : Shape).Idx) (idx : IVec ⟨2, ![n, 1]⟩ w) :
    d.start j idx 0 = (idx (ixP (j 0))).toInt := by
  have hm : (0 : Fin 1) ∈ d.scatterDimsToOperandDims := by rw [hsd]; exact List.mem_singleton.mpr rfl
  unfold ScatterDims.start
  rw [dif_pos hm, vec_siIdx d hsd hivd]
  rfl

/-- The operand's one axis is an inserted one: no window coordinate is added. -/
theorem vec_window0 (hiw : d.insertedWindowDims = [0]) (j : (⟨1, ![n]⟩ : Shape).Idx) :
    d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- Where an update entry lands: update entry `j` lands on operand entry `i` exactly when its position, read
    signed, is `i`. -/
theorem vec_resultIdx (hiw : d.insertedWindowDims = [0])
    (hsd : d.scatterDimsToOperandDims = [0]) (hivd : d.indexVectorDim = 1)
    (j : (⟨1, ![n]⟩ : Shape).Idx) (idx : IVec ⟨2, ![n, 1]⟩ w) (i : Fin N) :
    d.resultIdx? j idx = some (ix1 i) ↔ (idx (ixP (j 0))).toInt = (i.val : Int) := by
  have h0 := vec_start0 d hsd hivd j idx
  have w0 := vec_window0 d hiw j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have r0 := (hr 0).1
      rw [h0, w0] at e0 r0
      omega
    · exact absurd h (by simp)
  · intro hz
    have hr : ∀ a, 0 ≤ d.start j idx a + (d.window j a : Int) ∧
        d.start j idx a + (d.window j a : Int) < ((⟨1, ![N]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
    rw [dif_pos hr]
    congr 1
    funext a
    apply Fin.ext
    match a with
    | ⟨0, _⟩ =>
      show (d.start j idx 0 + (d.window j 0 : Int)).toNat = i.val
      rw [h0, w0, hz]; omega

end Vec

/-- A rank-1 index set is its one coordinate's range. -/
def idxEquiv1 {n : Nat} : (⟨1, ![n]⟩ : Shape).Idx ≃ Fin n where
  toFun a := a 0
  invFun e := ix1 e
  left_inv a := (eq_ix1 a).symm
  right_inv _ := rfl

/-- An accumulating scatter of a vector of `n` updates onto a vector of `N` entries along an
    [n × 1] column of positions: entry `i` ends at its old value plus the sum of the updates whose
    position, read signed, is `i`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (i : Fin N) :
    Ideal.hostScatterAdd d x idx upd (ix1 i)
      = x (ix1 i) + ∑ e : Fin n, if (idx (ixP e)).toInt = (i.val : Int) then upd (ix1 e) else 0 := by
  unfold Ideal.hostScatterAdd
  congr 1
  rw [Finset.sum_filter]
  simp only [vec_resultIdx d hiw hsd hivd]
  refine Fintype.sum_equiv idxEquiv1 _ _ fun a => ?_
  show _ = (if (idx (ixP (a 0))).toInt = (i.val : Int) then upd (ix1 (a 0)) else 0)
  rw [congrArg upd (eq_ix1 a)]
  rfl

section Rows
variable {N D n w : Nat} (d : ScatterDims ⟨2, ![N, D]⟩ ⟨2, ![n, 1]⟩ ⟨2, ![n, D]⟩)

/-- The scatter-indices position an update row reads: row `j 0` of the column. -/
theorem rows_siIdx (huw : d.updateWindowDims = [1]) (hsd : d.scatterDimsToOperandDims = [0])
    (hivd : d.indexVectorDim = 1) (j : (⟨2, ![n, D]⟩ : Shape).Idx) (c : Fin d.scatterDimsToOperandDims.length) :
    d.siIdx j c = ixP (j 0) := by
  have husc : d.uScatter = [0] := by
    show Shape.kept _ d.updateWindowDims = [0]
    rw [huw]; rfl
  funext b
  match b with
  | ⟨0, _⟩ =>
    unfold ScatterDims.siIdx
    rw [dif_neg (by rw [hivd]; simp)]
    unfold ScatterDims.siCoord
    apply Fin.ext
    simp only [Fin.val_cast]
    rw [getElem_of_eq_singleton _ _ _ _ husc]
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- On the row axis the window starts at the update's row number, read signed. -/
theorem rows_start0 (huw : d.updateWindowDims = [1]) (hsd : d.scatterDimsToOperandDims = [0])
    (hivd : d.indexVectorDim = 1) (j : (⟨2, ![n, D]⟩ : Shape).Idx) (idx : IVec ⟨2, ![n, 1]⟩ w) :
    d.start j idx 0 = (idx (ixP (j 0))).toInt := by
  have hm : (0 : Fin 2) ∈ d.scatterDimsToOperandDims := by rw [hsd]; exact List.mem_singleton.mpr rfl
  unfold ScatterDims.start
  rw [dif_pos hm, rows_siIdx d huw hsd hivd]
  rfl

/-- On the column axis, which the scatter indices do not address, the window starts at `0`. -/
theorem rows_start1 (hsd : d.scatterDimsToOperandDims = [0])
    (j : (⟨2, ![n, D]⟩ : Shape).Idx) (idx : IVec ⟨2, ![n, 1]⟩ w) :
    d.start j idx 1 = 0 := by
  have hm : (1 : Fin 2) ∉ d.scatterDimsToOperandDims := by rw [hsd]; simp
  unfold ScatterDims.start
  rw [dif_neg hm]

/-- The row axis is an inserted one: no window coordinate is added there. -/
theorem rows_window0 (hiw : d.insertedWindowDims = [0]) (j : (⟨2, ![n, D]⟩ : Shape).Idx) :
    d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- On the column axis the window coordinate is the update's own column. -/
theorem rows_window1 (huw : d.updateWindowDims = [1]) (hiw : d.insertedWindowDims = [0])
    (j : (⟨2, ![n, D]⟩ : Shape).Idx) :
    d.window j 1 = (j 1).val := by
  have hk : (1 : Fin 2) ∈ d.sKept := by
    show (1 : Fin 2) ∈ Shape.kept _ d.insertedWindowDims
    rw [hiw]; simp [Shape.kept]
  unfold ScatterDims.window
  rw [dif_pos hk, getElem_of_eq_singleton _ _ _ _ huw]

/-- Where an update element lands: update element `j` lands on operand element `(i, q)` exactly when its row
    number, read signed, is `i` and its column is `q`. -/
theorem rows_resultIdx (huw : d.updateWindowDims = [1]) (hiw : d.insertedWindowDims = [0])
    (hsd : d.scatterDimsToOperandDims = [0]) (hivd : d.indexVectorDim = 1)
    (j : (⟨2, ![n, D]⟩ : Shape).Idx) (idx : IVec ⟨2, ![n, 1]⟩ w) (i : Fin N) (q : Fin D) :
    d.resultIdx? j idx = some (ix2 i q) ↔ (idx (ixP (j 0))).toInt = (i.val : Int) ∧ (j 1).val = q.val := by
  have h0 := rows_start0 d huw hsd hivd j idx
  have h1 := rows_start1 d hsd j idx
  have w0 := rows_window0 d hiw j
  have w1 := rows_window1 d huw hiw j
  have hj1 : (j 1).val < D := idx2_lt1 j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have e1 : (d.start j idx 1 + (d.window j 1 : Int)).toNat = q.val := congrArg (fun f => (f 1).val) hf
      have r0 := (hr 0).1
      rw [h0, w0] at e0 r0
      rw [h1, w1] at e1
      exact ⟨by omega, by omega⟩
    · exact absurd h (by simp)
  · rintro ⟨hz, hq⟩
    have hr : ∀ a, 0 ≤ d.start j idx a + (d.window j a : Int) ∧
        d.start j idx a + (d.window j a : Int) < ((⟨2, ![N, D]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
      | ⟨1, _⟩ =>
        show 0 ≤ d.start j idx 1 + (d.window j 1 : Int) ∧ d.start j idx 1 + (d.window j 1 : Int) < (D : Int)
        rw [h1, w1]; omega
    rw [dif_pos hr]
    congr 1
    funext a
    apply Fin.ext
    match a with
    | ⟨0, _⟩ =>
      show (d.start j idx 0 + (d.window j 0 : Int)).toNat = i.val
      rw [h0, w0, hz]; omega
    | ⟨1, _⟩ =>
      show (d.start j idx 1 + (d.window j 1 : Int)).toNat = q.val
      rw [h1, w1]; omega

end Rows

/-- An accumulating scatter of `n` update rows of width `D` onto an [N × D] operand along an
    [n × 1] column of row numbers: element `(i, q)` ends at its old value plus the sum over the
    update rows whose row number, read signed, is `i` of their element `q`. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (i : Fin N) (q : Fin D) :
    Ideal.hostScatterAdd d x idx upd (ix2 i q)
      = x (ix2 i q) + ∑ e : Fin n, if (idx (ixP e)).toInt = (i.val : Int) then upd (ix2 e q) else 0 := by
  unfold Ideal.hostScatterAdd
  congr 1
  rw [Finset.sum_filter]
  simp only [rows_resultIdx d huw hiw hsd hivd]
  rw [sum_idx2]
  refine Finset.sum_congr rfl fun e _ => ?_
  show (∑ b : Fin D, if (idx (ixP e)).toInt = (i.val : Int) ∧ b.val = q.val then upd (ix2 e b) else 0) = _
  by_cases hz : (idx (ixP e)).toInt = (i.val : Int)
  · simp only [hz, true_and, if_true]
    rw [Finset.sum_eq_single q]
    · rw [if_pos rfl]
    · intro b _ hb; rw [if_neg (fun h => hb (Fin.ext h))]
    · intro h; exact absurd (Finset.mem_univ q) h
  · simp only [hz, false_and, if_false, Finset.sum_const_zero]

section Gather
variable {N D n w : Nat} (d : GatherDims ⟨2, ![N, D]⟩ ⟨2, ![n, 1]⟩ ⟨2, ![n, D]⟩)

/-- The start-indices position a result row reads: row `e` of the column. -/
theorem gather_siIdx (hoff : d.offsetDims = [1]) (hsim : d.startIndexMap = [0]) (hivd : d.indexVectorDim = 1)
    (e : Fin n) (q : Fin D) (c : Fin d.startIndexMap.length) : d.siIdx (ix2 e q) c = ixP e := by
  have hbatch : d.batchDims = [0] := by
    show Shape.kept _ d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    rw [getElem_of_eq_singleton _ _ _ _ hbatch]
    rfl
  | ⟨1, _⟩ =>
    unfold GatherDims.siIdx
    rw [dif_pos (by rw [hivd])]
    apply Fin.ext
    have hc : c.val < d.startIndexMap.length := c.isLt
    have hl : d.startIndexMap.length = 1 := by rw [hsim]; rfl
    show c.val = 0
    omega

/-- On the row axis the operand index is the start index, read signed and clamped into `[0, N − 1]`
    (the slice there has size one; no batching or offset coordinate is added). -/
theorem gather_rows_coord0 (hoff : d.offsetDims = [1]) (hcoll : d.collapsedSliceDims = [0])
    (hob : d.operandBatchingDims = []) (hsim : d.startIndexMap = [0]) (hivd : d.indexVectorDim = 1)
    (idx : IVec ⟨2, ![n, 1]⟩ w) (e : Fin n) (q : Fin D) :
    (d.operandIdx (ix2 e q) idx 0).val = min (idx (ixP e)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [gather_siIdx d hoff hsim hivd, hsl]
  rfl

/-- On the column axis the operand index is the result's own column: the start is `0` (the axis is not
    start-indexed) and the offset coordinate is the result's second coordinate. -/
theorem gather_rows_coord1 (hoff : d.offsetDims = [1]) (hcoll : d.collapsedSliceDims = [0])
    (hob : d.operandBatchingDims = []) (hsim : d.startIndexMap = [0])
    (idx : IVec ⟨2, ![n, 1]⟩ w) (e : Fin n) (q : Fin D) :
    (d.operandIdx (ix2 e q) idx 1).val = q.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  simp only [GatherDims.operandIdx, GatherDims.batchCoord_eq_zero _ _ _ hb, GatherDims.offCoord, dif_pos hk,
    Nat.add_zero, GatherDims.start, dif_neg hm, Nat.zero_add]
  rw [getElem_of_eq_singleton _ _ _ _ hoff]
  rfl

end Gather

/-- A gather of rows of an [N × D] operand along an [n × 1] column of row numbers: element `(e, q)`
    of the result is the operand's element `q` of the row whose number is position `e`'s, read
    signed and clamped into `[0, N − 1]`. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (q : Fin D) (hN : 0 < N) :
    Host.gather d x idx (ix2 e q)
      = x (ix2 (⟨min (idx (ixP e)).toInt.toNat (N - 1), by omega⟩ : Fin N) q) := by
  unfold Host.gather
  congr 1
  funext a
  apply Fin.ext
  match a with
  | ⟨0, _⟩ => exact gather_rows_coord0 d hoff hcoll hob hsim hivd idx e q
  | ⟨1, _⟩ => exact gather_rows_coord1 d hoff hcoll hob hsim idx e q

end Cert.ScatterRows

end
-- ==== Proof.LibEFinite.lean ====
import Mathlib.Data.EReal.Inv
import Mathlib.Algebra.Order.BigOperators.Group.Finset
import Mathlib.Tactic.Positivity
import Idealize.ShloMosaic.PureOps.Ideal

/-!
# Finiteness through the operations on the extended reals

An extended real is FINITE when it is the coercion of a real number. The arithmetic
of the extended reals has corners at the infinities (∞ − ∞, 0 · ∞, x / 0), and an
identity of real arithmetic holds there only for finite operands; so a comparison of
two programs on the extended reals first needs every intermediate value finite.

This file shows that finiteness passes through each operation the programs use: sums,
products, differences, maxima, finite sums, division by a nonzero real, the
reciprocal square root of a positive real, and the array operations built from them
(contraction, reduction along axes, accumulating scatter, gather). Where a value must
be a legal argument of a reciprocal square root or a divisor, its sign is carried
too: finite and ≥ 0, finite and > 0.
-/

open scoped BigOperators
open Idealize.ShloMosaic

noncomputable section

namespace Cert.EFinite

/-! ### The three predicates -/

/-- An extended real is finite: the coercion of a real number. -/
def IsFin (x : EReal) : Prop := ∃ r : ℝ, x = (r : EReal)

/-- Finite and ≥ 0. -/
def IsNonnegFin (x : EReal) : Prop := ∃ r : ℝ, 0 ≤ r ∧ x = (r : EReal)

/-- Finite and > 0. -/
def IsPosFin (x : EReal) : Prop := ∃ r : ℝ, 0 < r ∧ x = (r : EReal)

/-- A positive finite value is a nonnegative finite value. -/
theorem IsPosFin.isNonnegFin {x : EReal} (h : IsPosFin x) : IsNonnegFin x :=
  let ⟨r, hr, e⟩ := h; ⟨r, hr.le, e⟩

/-- A nonnegative finite value is finite. -/
theorem IsNonnegFin.isFin {x : EReal} (h : IsNonnegFin x) : IsFin x :=
  let ⟨r, _, e⟩ := h; ⟨r, e⟩

/-- A positive finite value is finite. -/
theorem IsPosFin.isFin {x : EReal} (h : IsPosFin x) : IsFin x := h.isNonnegFin.isFin

/-- A finite value is not +∞. -/
theorem IsFin.ne_top {x : EReal} (h : IsFin x) : x ≠ ⊤ := by
  obtain ⟨r, rfl⟩ := h; exact EReal.coe_ne_top r

/-- A finite value is not −∞. -/
theorem IsFin.ne_bot {x : EReal} (h : IsFin x) : x ≠ ⊥ := by
  obtain ⟨r, rfl⟩ := h; exact EReal.coe_ne_bot r

/-- Finite is exactly: neither infinity. -/
theorem isFin_iff {x : EReal} : IsFin x ↔ x ≠ ⊤ ∧ x ≠ ⊥ := by
  refine ⟨fun h => ⟨h.ne_top, h.ne_bot⟩, fun ⟨ht, hb⟩ => ?_⟩
  induction x using EReal.rec with
  | bot => exact absurd rfl hb
  | top => exact absurd rfl ht
  | coe r => exact ⟨r, rfl⟩

/-- A nonnegative finite value is ≥ 0 on the extended reals. -/
theorem IsNonnegFin.nonneg {x : EReal} (h : IsNonnegFin x) : 0 ≤ x := by
  obtain ⟨r, hr, rfl⟩ := h; exact EReal.coe_nonneg.mpr hr

/-- A positive finite value is > 0 on the extended reals, hence nonzero. -/
theorem IsPosFin.pos {x : EReal} (h : IsPosFin x) : 0 < x := by
  obtain ⟨r, hr, rfl⟩ := h; exact EReal.coe_pos.mpr hr

theorem IsPosFin.ne_zero {x : EReal} (h : IsPosFin x) : x ≠ 0 := h.pos.ne'

/-- A finite value that is ≥ 0 is nonnegative finite. -/
theorem IsFin.isNonnegFin {x : EReal} (h : IsFin x) (h0 : 0 ≤ x) : IsNonnegFin x := by
  obtain ⟨r, rfl⟩ := h; exact ⟨r, EReal.coe_nonneg.mp h0, rfl⟩

/-- A finite value that is > 0 is positive finite. -/
theorem IsFin.isPosFin {x : EReal} (h : IsFin x) (h0 : 0 < x) : IsPosFin x := by
  obtain ⟨r, rfl⟩ := h; exact ⟨r, EReal.coe_pos.mp h0, rfl⟩

/-! ### Scalars -/

/-- The coercion of a real is finite. -/
theorem isFin_coe (r : ℝ) : IsFin (r : EReal) := ⟨r, rfl⟩

/-- Zero is finite. -/
theorem isFin_zero : IsFin (0 : EReal) := ⟨0, rfl⟩

/-- One is finite. -/
theorem isFin_one : IsFin (1 : EReal) := ⟨1, rfl⟩

/-- Zero is nonnegative finite. -/
theorem isNonnegFin_zero : IsNonnegFin (0 : EReal) := ⟨0, le_rfl, rfl⟩

/-- One is positive finite. -/
theorem isPosFin_one : IsPosFin (1 : EReal) := ⟨1, one_pos, rfl⟩

/-- The coercion of a nonnegative real is nonnegative finite. -/
theorem isNonnegFin_coe {r : ℝ} (h : 0 ≤ r) : IsNonnegFin (r : EReal) := ⟨r, h, rfl⟩

/-- The coercion of a positive real is positive finite. -/
theorem isPosFin_coe {r : ℝ} (h : 0 < r) : IsPosFin (r : EReal) := ⟨r, h, rfl⟩

/-- The sum of two finite values is finite. -/
theorem IsFin.add {x y : EReal} (hx : IsFin x) (hy : IsFin y) : IsFin (x + y) := by
  obtain ⟨a, rfl⟩ := hx; obtain ⟨b, rfl⟩ := hy; exact ⟨a + b, (EReal.coe_add a b).symm⟩

/-- The product of two finite values is finite. -/
theorem IsFin.mul {x y : EReal} (hx : IsFin x) (hy : IsFin y) : IsFin (x * y) := by
  obtain ⟨a, rfl⟩ := hx; obtain ⟨b, rfl⟩ := hy; exact ⟨a * b, (EReal.coe_mul a b).symm⟩

/-- The negation of a finite value is finite. -/
theorem IsFin.neg {x : EReal} (hx : IsFin x) : IsFin (-x) := by
  obtain ⟨a, rfl⟩ := hx; exact ⟨-a, (EReal.coe_neg a).symm⟩

/-- The difference of two finite values is finite. -/
theorem IsFin.sub {x y : EReal} (hx : IsFin x) (hy : IsFin y) : IsFin (x - y) := by
  obtain ⟨a, rfl⟩ := hx; obtain ⟨b, rfl⟩ := hy; exact ⟨a - b, (EReal.coe_sub a b).symm⟩

/-- The maximum of two finite values is finite: it is one of them. -/
theorem IsFin.max {x y : EReal} (hx : IsFin x) (hy : IsFin y) : IsFin (max x y) := by
  rcases max_choice x y with h | h <;> rw [h] <;> assumption

/-- The minimum of two finite values is finite: it is one of them. -/
theorem IsFin.min {x y : EReal} (hx : IsFin x) (hy : IsFin y) : IsFin (min x y) := by
  rcases min_choice x y with h | h <;> rw [h] <;> assumption

/-- The maximum of a finite value with 0 (a rectifier) is nonnegative finite. -/
theorem IsFin.max_zero_isNonnegFin {x : EReal} (hx : IsFin x) : IsNonnegFin (Max.max x 0) :=
  (hx.max isFin_zero).isNonnegFin (le_max_right _ _)

/-- The sum of two nonnegative finite values is nonnegative finite. -/
theorem IsNonnegFin.add {x y : EReal} (hx : IsNonnegFin x) (hy : IsNonnegFin y) : IsNonnegFin (x + y) := by
  obtain ⟨a, ha, rfl⟩ := hx; obtain ⟨b, hb, rfl⟩ := hy
  exact ⟨a + b, add_nonneg ha hb, (EReal.coe_add a b).symm⟩

/-- The product of two nonnegative finite values is nonnegative finite. -/
theorem IsNonnegFin.mul {x y : EReal} (hx : IsNonnegFin x) (hy : IsNonnegFin y) : IsNonnegFin (x * y) := by
  obtain ⟨a, ha, rfl⟩ := hx; obtain ⟨b, hb, rfl⟩ := hy
  exact ⟨a * b, mul_nonneg ha hb, (EReal.coe_mul a b).symm⟩

/-- A nonnegative finite value plus a positive finite one is positive finite
    (a count ≥ 0 plus one is ≥ 1 > 0). -/
theorem IsNonnegFin.add_isPosFin {x y : EReal} (hx : IsNonnegFin x) (hy : IsPosFin y) : IsPosFin (x + y) := by
  obtain ⟨a, ha, rfl⟩ := hx; obtain ⟨b, hb, rfl⟩ := hy
  exact ⟨a + b, add_pos_of_nonneg_of_pos ha hb, (EReal.coe_add a b).symm⟩

/-- A nonnegative finite value plus one is a real ≥ 1. -/
theorem IsNonnegFin.add_one {x : EReal} (hx : IsNonnegFin x) : ∃ r : ℝ, 1 ≤ r ∧ x + 1 = (r : EReal) := by
  obtain ⟨a, ha, rfl⟩ := hx
  exact ⟨a + 1, by linarith, by rw [EReal.coe_add, EReal.coe_one]⟩

/-- The product of two positive finite values is positive finite. -/
theorem IsPosFin.mul {x y : EReal} (hx : IsPosFin x) (hy : IsPosFin y) : IsPosFin (x * y) := by
  obtain ⟨a, ha, rfl⟩ := hx; obtain ⟨b, hb, rfl⟩ := hy
  exact ⟨a * b, mul_pos ha hb, (EReal.coe_mul a b).symm⟩

/-- The maximum of a finite value with a positive finite one is positive finite
    (a count clamped below by one). -/
theorem IsFin.max_isPosFin {x y : EReal} (hx : IsFin x) (hy : IsPosFin y) : IsPosFin (Max.max x y) :=
  (hx.max hy.isFin).isPosFin (lt_of_lt_of_le hy.pos (le_max_right _ _))

/-! ### Finite sums -/

/-- A finite sum of finite values is finite. -/
theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- A finite sum of nonnegative finite values is nonnegative finite. -/
theorem isNonnegFin_sum {ι : Type*} (s : Finset ι) (f : ι → EReal) (h : ∀ i ∈ s, IsNonnegFin (f i)) :
    IsNonnegFin (∑ i ∈ s, f i) := by
  classical
  induction s using Finset.induction_on with
  | empty => simpa using isNonnegFin_zero
  | insert a s ha ih =>
    rw [Finset.sum_insert ha]
    exact (h a (Finset.mem_insert_self a s)).add (ih fun i hi => h i (Finset.mem_insert_of_mem hi))

/-- The sum over a whole finite type of finite values is finite. -/
theorem isFin_sum_univ {ι : Type*} [Fintype ι] (f : ι → EReal) (h : ∀ i, IsFin (f i)) : IsFin (∑ i, f i) :=
  isFin_sum _ f fun i _ => h i

/-! ### Division and the reciprocal square root -/

/-- A finite value divided by a nonzero real is finite. -/
theorem IsFin.div_coe {x : EReal} (hx : IsFin x) {y : ℝ} (hy : y ≠ 0) : IsFin (Ideal.div x (y : EReal)) := by
  rw [Ideal.div_coe hy]; exact hx.mul (isFin_coe _)

/-- A finite value divided by a positive finite one is finite. -/
theorem IsFin.div_isPosFin {x y : EReal} (hx : IsFin x) (hy : IsPosFin y) : IsFin (Ideal.div x y) := by
  obtain ⟨b, hb, rfl⟩ := hy; exact hx.div_coe hb.ne'

/-- A nonnegative finite value divided by a positive finite one is nonnegative finite. -/
theorem IsNonnegFin.div_isPosFin {x y : EReal} (hx : IsNonnegFin x) (hy : IsPosFin y) :
    IsNonnegFin (Ideal.div x y) := by
  obtain ⟨b, hb, rfl⟩ := hy
  rw [Ideal.div_coe hb.ne']
  exact hx.mul (isNonnegFin_coe (by positivity))

/-- The reciprocal square root of a positive real x is the real 1/√x. -/
theorem rsqrt_coe_of_pos {x : ℝ} (hx : 0 < x) : Ideal.rsqrt (x : EReal) = (((Real.sqrt x)⁻¹ : ℝ) : EReal) := by
  rw [Ideal.rsqrt_coe, if_neg (not_lt.mpr hx.le), if_neg hx.ne']

/-- The reciprocal square root of a positive finite value is positive finite. -/
theorem IsPosFin.rsqrt {x : EReal} (hx : IsPosFin x) : IsPosFin (Ideal.rsqrt x) := by
  obtain ⟨r, hr, rfl⟩ := hx
  exact ⟨(Real.sqrt r)⁻¹, inv_pos.mpr (Real.sqrt_pos.mpr hr), rsqrt_coe_of_pos hr⟩

/-- The reciprocal square root of (nonnegative finite + positive finite), such as a
    variance plus ε, is positive finite. -/
theorem IsNonnegFin.rsqrt_add_isPosFin {x e : EReal} (hx : IsNonnegFin x) (he : IsPosFin e) :
    IsPosFin (Ideal.rsqrt (x + e)) :=
  (hx.add_isPosFin he).rsqrt

/-! ### Arrays: functions into the extended reals -/

/-- A gather — any reindexing of a finite array — is finite. -/
theorem isFin_gather {α β : Type*} (x : α → EReal) (π : β → α) (hx : ∀ i, IsFin (x i)) :
    ∀ j, IsFin ((fun j => x (π j)) j) := fun j => hx (π j)

/-- Likewise for positive finite arrays. -/
theorem isPosFin_gather {α β : Type*} (x : α → EReal) (π : β → α) (hx : ∀ i, IsPosFin (x i)) :
    ∀ j, IsPosFin ((fun j => x (π j)) j) := fun j => hx (π j)

/-- A contraction with a finite accumulator and finite operands is finite entrywise:
    accumulator plus a finite sum of products. -/
theorem isFin_matmul {sl sr so : Shape} (d : DotDims sl sr so) (lhs : sl.Idx → EReal) (rhs : sr.Idx → EReal)
    (acc : so.Idx → EReal) (hl : ∀ i, IsFin (lhs i)) (hr : ∀ i, IsFin (rhs i)) (ha : ∀ j, IsFin (acc j)) :
    ∀ j, IsFin (Ideal.matmul d lhs rhs acc j) := fun j =>
  (ha j).add (isFin_sum _ _ fun k _ => (hl _).mul (hr _))

/-- The same contraction onto the zero accumulator (a host dot product). -/
theorem isFin_matmul_zero {sl sr so : Shape} (d : DotDims sl sr so) (lhs : sl.Idx → EReal) (rhs : sr.Idx → EReal)
    (hl : ∀ i, IsFin (lhs i)) (hr : ∀ i, IsFin (rhs i)) :
    ∀ j, IsFin (Ideal.matmul d lhs rhs (fun _ => 0) j) :=
  isFin_matmul d lhs rhs _ hl hr fun _ => isFin_zero

/-- A host reduction by addition of finite entries from a finite initial value is finite. -/
theorem isFin_hostReduceAdd {s : Shape} {axes : List (Fin s.rank)} {t : Shape} (h : s.ReducesTo axes t)
    (x : s.Idx → EReal) (init : EReal) (hx : ∀ i, IsFin (x i)) (hi : IsFin init) :
    ∀ j, IsFin (Ideal.hostReduceAdd h x init j) := fun _ =>
  hi.add (isFin_sum _ _ fun i _ => hx i)

/-- A kernel's reduction by addition of finite entries is finite. -/
theorem isFin_reduceAdd {s : Shape} {axes : List (Fin s.rank)} {t : Shape} (h : s.Reduces axes t)
    (x : s.Idx → EReal) (hx : ∀ i, IsFin (x i)) :
    ∀ j, IsFin (Ideal.reduceAdd h x j) := fun _ =>
  isFin_sum _ _ fun i _ => hx i

/-- An accumulating scatter of finite updates onto a finite operand is finite entrywise:
    each operand entry plus a finite sum of updates. -/
theorem isFin_hostScatterAdd {s si su : Shape} (d : ScatterDims s si su) {w : Nat} (x : s.Idx → EReal)
    (idx : IVec si w) (upd : su.Idx → EReal) (hx : ∀ i, IsFin (x i)) (hu : ∀ j, IsFin (upd j)) :
    ∀ i, IsFin (Ideal.hostScatterAdd d x idx upd i) := fun i =>
  (hx i).add (isFin_sum _ _ fun j _ => hu j)

/-- When every update is ≥ 0, an accumulating scatter only raises the operand. -/
theorem le_hostScatterAdd {s si su : Shape} (d : ScatterDims s si su) {w : Nat} (x : s.Idx → EReal)
    (idx : IVec si w) (upd : su.Idx → EReal) (hu : ∀ j, 0 ≤ upd j) :
    ∀ i, x i ≤ Ideal.hostScatterAdd d x idx upd i := fun i =>
  le_add_of_nonneg_right (Finset.sum_nonneg fun j _ => hu j)

/-- An accumulating scatter of nonnegative finite updates onto a nonnegative finite
    operand is nonnegative finite entrywise (ones scattered onto zeros: a count). -/
theorem isNonnegFin_hostScatterAdd {s si su : Shape} (d : ScatterDims s si su) {w : Nat} (x : s.Idx → EReal)
    (idx : IVec si w) (upd : su.Idx → EReal) (hx : ∀ i, IsNonnegFin (x i)) (hu : ∀ j, IsNonnegFin (upd j)) :
    ∀ i, IsNonnegFin (Ideal.hostScatterAdd d x idx upd i) := fun i =>
  (hx i).add (isNonnegFin_sum _ _ fun j _ => hu j)

/-- So a count (nonnegative finite updates scattered onto a nonnegative finite operand)
    plus a positive finite value — a degree plus one for the self-loop — is positive
    finite, a legal argument for a reciprocal square root or a divisor. -/
theorem isPosFin_hostScatterAdd_add {s si su : Shape} (d : ScatterDims s si su) {w : Nat} (x : s.Idx → EReal)
    (idx : IVec si w) (upd : su.Idx → EReal) (hx : ∀ i, IsNonnegFin (x i)) (hu : ∀ j, IsNonnegFin (upd j))
    {c : EReal} (hc : IsPosFin c) :
    ∀ i, IsPosFin (Ideal.hostScatterAdd d x idx upd i + c) := fun i =>
  (isNonnegFin_hostScatterAdd d x idx upd hx hu i).add_isPosFin hc

end Cert.EFinite
-- ==== Proof.RefAgg.lean ====
import proofs.«421699_j16904991277609_3_alg».proof.Proof.RefRead
import proofs.«421699_j16904991277609_3_alg».proof.Proof.Spec
import proofs.«421699_j16904991277609_3_alg».proof.Proof.LibScatterRows
import proofs.«421699_j16904991277609_3_alg».proof.Proof.LibEFinite
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.Affine
import Idealize.ShloMosaic.PureOps.Ideal.Laws

/-!
# The reference's aggregated features at an index

The reference gathers, for each of the 650000 edges, the transformed features of the edge's source,
scales them by the edge's normalised weight, and scatters the products, with accumulation, onto the
edge's target in a zeroed table. Read at node `p` and feature `q`: zero plus the sum over the edges
whose target is `p` of the source's transformed feature `q` times the edge's weight. (The gather
first adds 10000 to a negative source; where every source is at least 0 that does nothing, and
where it is below 10000 the gather's clamp does nothing either.)
-/

open scoped BigOperators

noncomputable section

namespace Cert.ReferenceIdeal.RefAgg

open Cert.ReferenceIdeal Cert.ReferenceIdeal.Gen Cert.ReferenceIdeal.ReadP
open Idealize.ShloMosaic Idealize.ShloMosaic.TcCoe Idealize.ShloMosaic.ValueIdx Idealize.ShloMosaic.StableHlo.Predicate

/-- The reference's transformed features `%39` at `(r, k)` are the linear map of the arguments. -/
theorem v39_apply (x0 : (⟨S10000x128, .f32⟩ : BufTy).Contents (Elt Ideal)) (x2 : (⟨S128x128, .f32⟩ : BufTy).Contents (Elt Ideal))
    (x3 : (⟨S128, .f32⟩ : BufTy).Contents (Elt Ideal)) (r : Fin 10000) (k : Fin 128) :
    val_main_v39 (F := Ideal) x0 x2 x3 (ix2 r k)
      = Cert.Spec.lin x0 (val_main_v35 (F := Ideal) x2) (val_main_v37 (F := Ideal) x3) r k := by
  -- the product's left operand is read along row `r`, its right operand down column `k`
  have el : ∀ k' : Fin 128, lidx_main_v36 (ix2 r k) k' = ix2 r k' := fun k' =>
    funext fun a => Fin.ext (by match a with | ⟨0, _⟩ => rfl | ⟨1, _⟩ => rfl)
  have er : ∀ k' : Fin 128, ridx_main_v36 (ix2 r k) k' = ix2 k' k := fun k' =>
    funext fun a => Fin.ext (by match a with | ⟨0, _⟩ => rfl | ⟨1, _⟩ => rfl)
  -- the bias row is broadcast down the rows: it is read at row 0, column `k`
  have e38 : idx_main_v38 (ix2 r k) = ix2 (0 : Fin 1) k :=
    funext fun a => Fin.ext (by match a with | ⟨0, _⟩ => rfl | ⟨1, _⟩ => rfl)
  rw [val_main_v39_apply, val_main_v36_apply, val_main_v38_apply, Ideal.addf_def, e38]
  unfold Cert.Spec.lin
  simp only [el, er]

/-- The scatter's column of targets `%51` at position `e` is the target list `%9` at `e`. -/
theorem v51_at (x6 : (⟨S2x640000, .i32⟩ : BufTy).Contents (Elt Ideal)) (e : Fin 650000) :
    val_main_v51 (F := Ideal) x6 (ixP e) = val_main_v9 (F := Ideal) x6 (ix1 e) := by
  have ei : idx_main_v51 (ixP e) = ix1 e :=
    funext fun a => Fin.ext (by match a with | ⟨0, _⟩ => rfl)
  rw [val_main_v51_apply, ei]

/-- The weights broadcast across the 128 features, `%48` at `(e, q)`, are the edge weight `%34` at `e`. -/
theorem v48_at (x1 : (⟨S640000x4, .f32⟩ : BufTy).Contents (Elt Ideal)) (x6 : (⟨S2x640000, .i32⟩ : BufTy).Contents (Elt Ideal))
    (e : Fin 650000) (q : Fin 128) :
    val_main_v48 (F := Ideal) x1 x6 (ix2 e q) = val_main_v34 (F := Ideal) x1 x6 (ix1 e) := by
  have ei : idx_main_v47 (idx_main_v48 (ix2 e q)) = ix1 e :=
    funext fun a => Fin.ext (by match a with | ⟨0, _⟩ => rfl)
  rw [val_main_v48_apply, val_main_v47_apply, ei]

/-- The gather's column of sources `%45` at position `e` is the adjusted source list `%44` at `e`. -/
theorem v45_at (x6 : (⟨S2x640000, .i32⟩ : BufTy).Contents (Elt Ideal)) (e : Fin 650000) :
    val_main_v45 (F := Ideal) x6 (ixP e) = val_main_v44 (F := Ideal) x6 (ix1 e) := by
  have ei : idx_main_v45 (ixP e) = ix1 e :=
    funext fun a => Fin.ext (by match a with | ⟨0, _⟩ => rfl)
  rw [val_main_v45_apply, ei]

/-- A source that is at least 0, read signed, is not below 0: the adjustment `%44` (add 10000 to a
    negative source) leaves it as it is. -/
theorem v44_at (x6 : (⟨S2x640000, .i32⟩ : BufTy).Contents (Elt Ideal)) (e : Fin 650000)
    (h0 : 0 ≤ (val_main_v6 (F := Ideal) x6 (ix1 e)).toInt) :
    val_main_v44 (F := Ideal) x6 (ix1 e) = val_main_v6 (F := Ideal) x6 (ix1 e) := by
  have hb : IntOp.cmpi .slt (val_main_v6 (F := Ideal) x6 (ix1 e)) (0#32) = 0#1 :=
    eq_zero_of_ne_one fun h => by
      have hlt := IntOp.cmpi_slt.mp h
      have hz : (0#32 : BitVec 32).toInt = 0 := by decide
      omega
  rw [val_main_v44_apply, val_main_v41_apply, val_main_v40_apply, val_main_c_6_apply, hb, select_zero]

/-- The gathered rows `%46` at `(e, q)`: the linear map at the edge's source and feature `q`. The source
    is in `[0, 10000)`, so neither the adjustment of negative sources nor the gather's clamp moves it. -/
theorem v46_at (x0 : (⟨S10000x128, .f32⟩ : BufTy).Contents (Elt Ideal)) (x2 : (⟨S128x128, .f32⟩ : BufTy).Contents (Elt Ideal))
    (x3 : (⟨S128, .f32⟩ : BufTy).Contents (Elt Ideal)) (x6 : (⟨S2x640000, .i32⟩ : BufTy).Contents (Elt Ideal))
    (e : Fin 650000) (q : Fin 128)
    (h0 : 0 ≤ (val_main_v6 (F := Ideal) x6 (ix1 e)).toInt) (h1 : (val_main_v6 (F := Ideal) x6 (ix1 e)).toInt < 10000) :
    val_main_v46 (F := Ideal) x0 x2 x3 x6 (ix2 e q)
      = Cert.Spec.lin x0 (val_main_v35 (F := Ideal) x2) (val_main_v37 (F := Ideal) x3)
          ⟨(val_main_v6 (F := Ideal) x6 (ix1 e)).toInt.toNat, by omega⟩ q := by
  unfold val_main_v46
  rw [Cert.ScatterRows.gather_rows _ rfl rfl rfl rfl rfl rfl _ _ e q (by decide), ← v39_apply]
  refine congrArg (fun t => val_main_v39 (F := Ideal) x0 x2 x3 (ix2 t q)) (Fin.ext ?_)
  show min (val_main_v45 (F := Ideal) x6 (ixP e)).toInt.toNat (10000 - 1) = (val_main_v6 (F := Ideal) x6 (ix1 e)).toInt.toNat
  rw [v45_at, v44_at x6 e h0]
  omega

/-- The scattered updates `%49` at `(e, q)`: the linear map at the edge's source times the edge's weight. -/
theorem v49_at (x0 : (⟨S10000x128, .f32⟩ : BufTy).Contents (Elt Ideal)) (x1 : (⟨S640000x4, .f32⟩ : BufTy).Contents (Elt Ideal))
    (x2 : (⟨S128x128, .f32⟩ : BufTy).Contents (Elt Ideal)) (x3 : (⟨S128, .f32⟩ : BufTy).Contents (Elt Ideal))
    (x6 : (⟨S2x640000, .i32⟩ : BufTy).Contents (Elt Ideal)) (e : Fin 650000) (q : Fin 128)
    (h0 : 0 ≤ (val_main_v6 (F := Ideal) x6 (ix1 e)).toInt) (h1 : (val_main_v6 (F := Ideal) x6 (ix1 e)).toInt < 10000) :
    val_main_v49 (F := Ideal) x0 x1 x2 x3 x6 (ix2 e q)
      = Cert.Spec.lin x0 (val_main_v35 (F := Ideal) x2) (val_main_v37 (F := Ideal) x3)
          ⟨(val_main_v6 (F := Ideal) x6 (ix1 e)).toInt.toNat, by omega⟩ q
        * val_main_v34 (F := Ideal) x1 x6 (ix1 e) := by
  rw [val_main_v49_apply, Ideal.mulf_def, v46_at x0 x2 x3 x6 e q h0 h1, v48_at]

/-- The zeroed table `%50` the scatter accumulates into is 0 at every index. -/
theorem v50_at (i : S10000x128.Idx) : val_main_v50 (F := Ideal) i = 0 := by
  rw [val_main_v50_apply, val_main_cst_8_apply, Ideal.ofBits_def, Ideal.ofBits_zero_f32]

/-- The reference's aggregated features `%52` at `(p, q)`. -/
theorem v52_apply (x0 : (⟨S10000x128, .f32⟩ : BufTy).Contents (Elt Ideal)) (x1 : (⟨S640000x4, .f32⟩ : BufTy).Contents (Elt Ideal))
    (x2 : (⟨S128x128, .f32⟩ : BufTy).Contents (Elt Ideal)) (x3 : (⟨S128, .f32⟩ : BufTy).Contents (Elt Ideal))
    (x6 : (⟨S2x640000, .i32⟩ : BufTy).Contents (Elt Ideal))
    (hrow : ∀ e : Fin 650000, 0 ≤ (val_main_v6 (F := Ideal) x6 (ix1 e)).toInt ∧ (val_main_v6 (F := Ideal) x6 (ix1 e)).toInt < 10000)
    (p : Fin 10000) (q : Fin 128) :
    val_main_v52 (F := Ideal) x0 x1 x2 x3 x6 (ix2 p q)
      = 0 + ∑ e : Fin 650000,
          if (val_main_v9 (F := Ideal) x6 (ix1 e)).toInt = (p.val : Int)
          then Cert.Spec.lin x0 (val_main_v35 (F := Ideal) x2) (val_main_v37 (F := Ideal) x3)
                ⟨(val_main_v6 (F := Ideal) x6 (ix1 e)).toInt.toNat, by have := hrow e; omega⟩ q
              * val_main_v34 (F := Ideal) x1 x6 (ix1 e)
          else 0 := by
  unfold val_main_v52
  simp only [Host.scatterAdd, Ideal.hostScatterAdd_def]
  rw [Cert.ScatterRows.hostScatterAdd_rows _ rfl rfl rfl rfl, v50_at]
  refine congrArg (fun t : EReal => (0 : EReal) + t) (Finset.sum_congr rfl fun e _ => ?_)
  rw [v51_at]
  exact if_congr Iff.rfl (v49_at x0 x1 x2 x3 x6 e q (hrow e).1 (hrow e).2) rfl

end Cert.ReferenceIdeal.RefAgg

end
-- ==== Proof.KernAdj.lean ====
import proofs.«421699_j16904991277609_3_alg».proof.KernelIdeal
import proofs.«421699_j16904991277609_3_alg».proof.Proof.LibScatterRows
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

/-!
# The dense adjacency at an entry

The kernel's host program scatters, with accumulation, the 650000 normalised edge weights onto a
zeroed flat array of 10000 · 10000 entries at position `target · 10000 + source` (32-bit words), and
reshapes the flat array to a 10000 × 10000 matrix. Where every target and source, read signed, is in
`[0, 10000)`, the flat position does not wrap, position `c · 10000 + r` is named by exactly the
edges with target `c` and source `r`, and entry `(c, r)` of the matrix is zero plus the sum of
their weights.
-/

open scoped BigOperators

noncomputable section

namespace Cert.KernelIdeal.KernAdj

open Cert.KernelIdeal Idealize.ShloMosaic Idealize.ShloMosaic.ValueIdx Idealize.ShloMosaic.StableHlo.Predicate

variable [Cert.KernelIdeal.Facts]
open Cert.KernelIdeal.Facts₀ Cert.KernelIdeal.Facts

/-- For two words in `[0, 10000)` read signed, `a · 10000 + b` does not wrap: read signed it is the integer
    `a · 10000 + b`. -/
theorem flat_toInt (a b : BitVec 32) (ha : 0 ≤ a.toInt ∧ a.toInt < 10000) (hb : 0 ≤ b.toInt ∧ b.toInt < 10000) :
    (IntOp.addi (IntOp.muli a 10000#32) b).toInt = a.toInt * 10000 + b.toInt := by
  -- a word whose signed reading is non-negative and small is its unsigned reading
  have ea : a.toInt = (a.toNat : Int) ∧ a.toNat < 10000 := by
    have h := BitVec.toInt_eq_toNat_cond a
    have hl := a.isLt
    split at h <;> omega
  have eb : b.toInt = (b.toNat : Int) ∧ b.toNat < 10000 := by
    have h := BitVec.toInt_eq_toNat_cond b
    have hl := b.isLt
    split at h <;> omega
  show (a * 10000#32 + b).toInt = _
  -- the product and the sum stay below 10⁸ < 2³¹: nothing is reduced, and the sign bit is clear
  have hk : (10000#32).toNat = 10000 := rfl
  have hn : (a * 10000#32 + b).toNat = a.toNat * 10000 + b.toNat := by
    rw [BitVec.toNat_add, BitVec.toNat_mul, hk]
    omega
  rw [BitVec.toInt_eq_toNat_cond, hn, ea.1, eb.1]
  rw [if_pos (by omega)]
  push_cast
  rfl

/-- Entry `(c, r)` of the reshaped scatter: zero plus the sum of the weights of the edges whose target word is `c`
    and whose source word is `r`. -/
theorem adj_apply (colI rowI : IVec S650000 32) (nrm : FVec Ideal S650000 .f32)
    (hcol : ∀ e : Fin 650000, 0 ≤ (colI (ix1 e)).toInt ∧ (colI (ix1 e)).toInt < 10000)
    (hrow : ∀ e : Fin 650000, 0 ≤ (rowI (ix1 e)).toInt ∧ (rowI (ix1 e)).toInt < 10000)
    (c r : Fin 10000) :
    shapeCast S10000x10000
        (Host.scatterAdd (F := Ideal) scatter_S100000000_S650000x1_S650000_n_0_0_1
          (broadcastInDim S100000000 ![] bcast_S_S100000000 (constant (F := Ideal) S_ .f32 0x00000000#32))
          (broadcastInDim S650000x1 ![0] bcast_S650000_S650000x1_0
            (addi (muli colI (broadcastInDim S650000 ![] bcast_S_S650000 (constantI S_ 32 10000#32))) rowI))
          nrm)
        shapeCasts_S100000000_S10000x10000 (ix2 c r)
      = 0 + ∑ e : Fin 650000,
          if (colI (ix1 e)).toInt = (c.val : Int) ∧ (rowI (ix1 e)).toInt = (r.val : Int) then nrm (ix1 e) else 0 := by
  have hc := c.isLt
  have hr := r.isLt
  -- the matrix entry (c, r) is the flat entry at the same row-major position c · 10000 + r
  have hpos : c.val * 10000 + r.val < 100000000 := by omega
  rw [shapeCast_apply _ _ (ix2 c r) (ix1 (⟨c.val * 10000 + r.val, hpos⟩ : Fin 100000000)) (by
    rw [Shape.rowMajor_val_two, Shape.rowMajor_val_one]
    rfl)]
  -- the accumulating scatter at that position: the operand's entry plus the updates whose position it is
  show Ideal.hostScatterAdd scatter_S100000000_S650000x1_S650000_n_0_0_1 _ _ _ (ix1 (⟨c.val * 10000 + r.val, hpos⟩ : Fin 100000000)) = _
  rw [Cert.ScatterRows.hostScatterAdd_vec _ rfl rfl rfl rfl]
  -- the position column at edge e holds the flat word target · 10000 + source
  have hflat : ∀ e : Fin 650000,
      broadcastInDim S650000x1 ![0] bcast_S650000_S650000x1_0
          (addi (muli colI (broadcastInDim S650000 ![] bcast_S_S650000 (constantI S_ 32 10000#32))) rowI) (ixP e)
        = IntOp.addi (IntOp.muli (colI (ix1 e)) 10000#32) (rowI (ix1 e)) := by
    intro e
    rw [broadcastInDim_apply _ _ _ (ixP e) (ix1 e) (by
      intro a
      have ha : a = 0 := Subsingleton.elim _ _
      subst ha
      rw [if_neg (by decide)]
      rfl)]
    rfl
  refine congrArg₂ (· + ·) ?_ ?_
  · -- the operand is the zero constant everywhere
    show Ideal.ofBits .f32 0x00000000#32 = 0
    exact Ideal.ofBits_zero_f32
  · refine Finset.sum_congr rfl fun e _ => if_congr ?_ rfl rfl
    -- the flat word does not wrap, and c · 10000 + r with r < 10000 determines c and r
    rw [hflat e, flat_toInt _ _ (hcol e) (hrow e)]
    have h1 := hcol e
    have h2 := hrow e
    show _ = ((c.val * 10000 + r.val : ℕ) : ℤ) ↔ _
    push_cast
    omega

end Cert.KernelIdeal.KernAdj

end
-- ==== Proof.Agg.lean ====
import Mathlib.Data.EReal.Basic
import Mathlib.Algebra.BigOperators.Group.Finset.Basic
import proofs.«421699_j16904991277609_3_alg».proof.Proof.LibEFinite

/-!
# A dense adjacency product against a scatter of messages

Edges `e` with a target `col e`, a source `row e` and a weight `nrm e` define the dense matrix
`adj c r`, the sum of the weights of the edges from `r` to `c`. The product of row `c` of that matrix
with a feature table `H` is the sum over the edges into `c` of the source's features times the
edge's weight: each edge is counted once, in the cell of its own source. On the extended reals this
takes finite weights and features (distributing a sum over a product fails at the infinities), and
then the difference of the matrix with itself is zero and contributes nothing.
-/

open scoped BigOperators
open Cert.EFinite

noncomputable section

namespace Cert.Agg

/-- The dense adjacency: entry `(c, r)` is zero plus the sum of the weights of the edges with
    target `c` and source `r`. -/
def adj {E N : Nat} (col row : Fin E → Fin N) (nrm : Fin E → EReal) (c r : Fin N) : EReal :=
  0 + ∑ e : Fin E, if col e = c ∧ row e = r then nrm e else 0

/-- The coercion from the reals to the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With finite weights every entry of the dense adjacency is finite. -/
theorem adj_isFin {E N : Nat} (col row : Fin E → Fin N) (nrm : Fin E → EReal)
    (hn : ∀ e, IsFin (nrm e)) (c r : Fin N) : IsFin (adj col row nrm c r) := by
  unfold adj
  refine isFin_zero.add (isFin_sum_univ _ fun e => ?_)
  split_ifs
  · exact hn e
  · exact isFin_zero

/-- The real identity behind the theorem: summing over the sources `r` the entry `(c, r)` of the
    real adjacency times `h r` counts each edge into `c` once, at its own source. -/
theorem real_dense_eq_scatter {E N : Nat} (col row : Fin E → Fin N) (a : Fin E → ℝ)
    (h : Fin N → ℝ) (c : Fin N) :
    ∑ r : Fin N, (∑ e : Fin E, if col e = c ∧ row e = r then a e else 0) * h r
      = ∑ e : Fin E, if col e = c then h (row e) * a e else 0 := by
  simp_rw [Finset.sum_mul]
  rw [Finset.sum_comm]
  refine Finset.sum_congr rfl fun e _ => ?_
  by_cases hc : col e = c
  · -- the inner sum over `r` keeps only the term `r = row e`
    simp only [hc, true_and, if_true, ite_mul, zero_mul]
    rw [Finset.sum_ite_eq Finset.univ (row e) (fun r => a e * h r)]
    simp [mul_comm]
  · simp [hc]

/-- Row `c` of the dense adjacency times the feature table, plus the same product for the
    matrix's difference with itself, is the scatter onto `c` of the messages
    `H (row e) · nrm e` of the edges into `c`. -/
theorem dense_eq_scatter {E N D : Nat} (col row : Fin E → Fin N) (nrm : Fin E → EReal)
    (H : Fin N → Fin D → EReal) (hn : ∀ e, IsFin (nrm e)) (hH : ∀ r q, IsFin (H r q))
    (c : Fin N) (q : Fin D) :
    (0 + ∑ r : Fin N, adj col row nrm c r * H r q)
      + (0 + ∑ r : Fin N, (adj col row nrm c r - adj col row nrm c r) * H r q)
      = 0 + ∑ e : Fin E, if col e = c then H (row e) q * nrm e else 0 := by
  -- real witnesses for the weights and the features
  choose a ha using hn
  choose h hh using hH
  -- every entry of the adjacency is the coercion of the real adjacency
  have hadj : ∀ r, adj col row nrm c r
      = ((∑ e : Fin E, if col e = c ∧ row e = r then a e else 0 : ℝ) : EReal) := by
    intro r
    unfold adj
    rw [zero_add, coe_finset_sum]
    refine Finset.sum_congr rfl fun e _ => ?_
    split_ifs
    · exact ha e
    · exact EReal.coe_zero.symm
  -- the difference of a finite entry with itself is zero, so the second product vanishes
  have hsub : ∀ r, (adj col row nrm c r - adj col row nrm c r) * H r q = 0 := by
    intro r
    rw [hadj r, ← EReal.coe_sub, sub_self, EReal.coe_zero, zero_mul]
  simp only [hsub, Finset.sum_const_zero, add_zero, zero_add]
  -- both sides are coercions of real sums
  have hl : ∑ r : Fin N, adj col row nrm c r * H r q
      = ((∑ r : Fin N, (∑ e : Fin E, if col e = c ∧ row e = r then a e else 0) * h r q : ℝ) : EReal) := by
    rw [coe_finset_sum]
    refine Finset.sum_congr rfl fun r _ => ?_
    rw [hadj r, hh r q, EReal.coe_mul]
  have hr : (∑ e : Fin E, if col e = c then H (row e) q * nrm e else 0)
      = ((∑ e : Fin E, if col e = c then h (row e) q * a e else 0 : ℝ) : EReal) := by
    rw [coe_finset_sum]
    refine Finset.sum_congr rfl fun e _ => ?_
    split_ifs
    · rw [hh (row e) q, ha e, EReal.coe_mul]
    · exact EReal.coe_zero.symm
  rw [hl, hr, real_dense_eq_scatter col row a (fun r => h r q) c]

end Cert.Agg

end
-- ==== Proof.BridgeMath.lean ====
import proofs.«421699_j16904991277609_3_alg».proof.Proof.Spec
import proofs.«421699_j16904991277609_3_alg».proof.Proof.Agg
import proofs.«421699_j16904991277609_3_alg».proof.Proof.LibEFinite
import Idealize.ShloMosaic.Lib.ValueIdx

/-!
# The two dense products are the edge-wise aggregation

The kernel multiplies row `p` of a dense adjacency matrix — entry `(c, r)` the summed weights of the
edges from `r` to `c`, the edges' endpoints given as 32-bit words — and of that matrix's difference
with itself, by the feature table. Where the words are node numbers and weights and features are
finite, the result is the sum over the edges into `p` of the source's features times the weight.
-/

open scoped BigOperators
open Idealize.ShloMosaic Idealize.ShloMosaic.ValueIdx
open Cert.EFinite

noncomputable section

namespace Cert.BridgeMath

/-- A vector of 650000 words. -/
abbrev Words : Type := IVec (⟨1, ![650000]⟩ : Shape) 32

/-- An edge's endpoint word as a node number, where the words are in `[0, 10000)`. -/
def toNode (w : Words) (h : ∀ e : Fin 650000, 0 ≤ (w (ix1 e)).toInt ∧ (w (ix1 e)).toInt < 10000) (e : Fin 650000) : Fin 10000 :=
  ⟨(w (ix1 e)).toInt.toNat, by have := h e; omega⟩

/-- The node number is `c` exactly when the word, read signed, is `c`. -/
theorem toNode_eq_iff (w : Words) (h : ∀ e : Fin 650000, 0 ≤ (w (ix1 e)).toInt ∧ (w (ix1 e)).toInt < 10000)
    (e : Fin 650000) (c : Fin 10000) : toNode w h e = c ↔ (w (ix1 e)).toInt = (c.val : Int) := by
  have := h e
  constructor
  · intro hc
    have hv : (w (ix1 e)).toInt.toNat = c.val := congrArg Fin.val hc
    omega
  · intro hc
    apply Fin.ext
    show (w (ix1 e)).toInt.toNat = c.val
    omega

/-- Row `p` of the dense adjacency and of its difference with itself against column `k` of the feature table is
    the edge-wise aggregation into `p`. -/
theorem acc_eq (colI rowI : Words) (nrm : (⟨1, ![650000]⟩ : Shape).Idx → EReal) (Hfun : Fin 10000 → Fin 128 → EReal)
    (hcol : ∀ e : Fin 650000, 0 ≤ (colI (ix1 e)).toInt ∧ (colI (ix1 e)).toInt < 10000)
    (hrow : ∀ e : Fin 650000, 0 ≤ (rowI (ix1 e)).toInt ∧ (rowI (ix1 e)).toInt < 10000)
    (hn : ∀ i, IsFin (nrm i)) (hHf : ∀ r k, IsFin (Hfun r k))
    (AHI ALO : Cert.Spec.Arr 10000 10000) (H : Cert.Spec.Arr 10000 128)
    (hAHI : ∀ c r : Fin 10000, AHI (ix2 c r)
      = 0 + ∑ e : Fin 650000, if (colI (ix1 e)).toInt = (c.val : Int) ∧ (rowI (ix1 e)).toInt = (r.val : Int) then nrm (ix1 e) else 0)
    (hALO : ∀ c r : Fin 10000, ALO (ix2 c r) = AHI (ix2 c r) - AHI (ix2 c r))
    (hH : ∀ (r : Fin 10000) (k : Fin 128), H (ix2 r k) = Hfun r k)
    (p : Fin 10000) (k : Fin 128) :
    Cert.Spec.acc AHI ALO H p k
      = 0 + ∑ e : Fin 650000,
          if (colI (ix1 e)).toInt = (p.val : Int) then Hfun (toNode rowI hrow e) k * nrm (ix1 e) else 0 := by
  have hadj : ∀ c r : Fin 10000,
      AHI (ix2 c r) = Cert.Agg.adj (toNode colI hcol) (toNode rowI hrow) (fun e => nrm (ix1 e)) c r := by
    intro c r
    rw [hAHI]
    unfold Cert.Agg.adj
    refine congrArg (fun s => 0 + s) (Finset.sum_congr rfl fun e _ => if_congr ?_ rfl rfl)
    rw [toNode_eq_iff, toNode_eq_iff]
  unfold Cert.Spec.acc
  have e1 : ∑ r : Fin 10000, AHI (ix2 p r) * H (ix2 r k)
      = ∑ r : Fin 10000, Cert.Agg.adj (toNode colI hcol) (toNode rowI hrow) (fun e => nrm (ix1 e)) p r * Hfun r k :=
    Finset.sum_congr rfl fun r _ => by rw [hadj, hH]
  have e2 : ∑ r : Fin 10000, ALO (ix2 p r) * H (ix2 r k)
      = ∑ r : Fin 10000, (Cert.Agg.adj (toNode colI hcol) (toNode rowI hrow) (fun e => nrm (ix1 e)) p r
          - Cert.Agg.adj (toNode colI hcol) (toNode rowI hrow) (fun e => nrm (ix1 e)) p r) * Hfun r k :=
    Finset.sum_congr rfl fun r _ => by rw [hALO, hadj, hH]
  rw [e1, e2]
  have key := Cert.Agg.dense_eq_scatter (toNode colI hcol) (toNode rowI hrow) (fun e => nrm (ix1 e)) Hfun
    (fun e => hn _) hHf p k
  rw [zero_add, zero_add] at key
  rw [key]
  refine congrArg (fun s => 0 + s) (Finset.sum_congr rfl fun e _ => if_congr ?_ rfl rfl)
  rw [toNode_eq_iff]

end Cert.BridgeMath

end
-- ==== Proof.Edges.lean ====
import proofs.«421699_j16904991277609_3_alg».proof.Proof.RefRead
import proofs.«421699_j16904991277609_3_alg».proof.Proof.Spec
import proofs.«421699_j16904991277609_3_alg».proof.Proof.LibScatterRows
import proofs.«421699_j16904991277609_3_alg».proof.Proof.LibEFinite
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

/-!
# The edge endpoints are node numbers

The sources and the targets of the 650000 edges are a row of the edge table followed by the
self-loops `0, 1, …, 9999`. Where every entry of the edge table, read signed, is in `[0, 10000)`,
so is every source and every target.
-/

open scoped BigOperators

noncomputable section

namespace Cert.ReferenceIdeal.Edges

open Cert.ReferenceIdeal Cert.ReferenceIdeal.Gen Cert.ReferenceIdeal.ReadP
open Idealize.ShloMosaic Idealize.ShloMosaic.TcCoe Idealize.ShloMosaic.ValueIdx

/-- The 32-bit word of a natural number below 10000, read signed, is that number: it lies in
    `[0, 10000)`. -/
theorem ofNat_small_range (n : Nat) (hn : n < 10000) :
    0 ≤ (BitVec.ofNat 32 n).toInt ∧ (BitVec.ofNat 32 n).toInt < 10000 := by
  have hnat : (BitVec.ofNat 32 n).toNat = n := by
    rw [BitVec.toNat_ofNat]; exact Nat.mod_eq_of_lt (by omega)
  have hint : (BitVec.ofNat 32 n).toInt = ((BitVec.ofNat 32 n).toNat : Int) :=
    BitVec.toInt_eq_toNat_of_lt (by rw [hnat]; omega)
  rw [hint, hnat]
  omega

/-- Below position 640000 the sources are the edge table's row 0. -/
theorem row_left (x6 : (⟨S2x640000, .i32⟩ : BufTy).Contents (Elt Ideal)) (e : Fin 650000)
    (he : e.val < 640000) :
    val_main_v6 (F := Ideal) x6 (ix1 e) = val_main_v5 (F := Ideal) x6 (ix1 ⟨e.val, he⟩) := by
  unfold val_main_v6
  exact concatenate_pair_apply_left 0 _ _ concatenates_S640000_S10000_S650000_d0 (ix1 e) rfl
    (ix1 ⟨e.val, he⟩) (fun b => by match b with | ⟨0, _⟩ => rfl)

/-- From position 640000 on the sources are the self-loops: position `e` holds `e - 640000`. -/
theorem row_right (x6 : (⟨S2x640000, .i32⟩ : BufTy).Contents (Elt Ideal)) (e : Fin 650000)
    (he : 640000 ≤ e.val) (he2 : e.val - 640000 < 10000) :
    val_main_v6 (F := Ideal) x6 (ix1 e) = val_main_v3 (F := Ideal) (ix1 ⟨e.val - 640000, he2⟩) := by
  unfold val_main_v6
  refine concatenate_pair_apply_right 0 _ _ concatenates_S640000_S10000_S650000_d0 (ix1 e) rfl rfl
    (ix1 ⟨e.val - 640000, he2⟩) ?_ ?_
  · -- a rank-1 shape has no axis other than the joined one
    intro b hb
    exfalso
    apply hb
    apply Fin.ext
    have hlt : b.val < 1 := b.isLt
    show b.val = 0
    omega
  · show e.val - 640000 + 640000 = e.val
    omega

/-- Below position 640000 the targets are the edge table's row 1. -/
theorem col_left (x6 : (⟨S2x640000, .i32⟩ : BufTy).Contents (Elt Ideal)) (e : Fin 650000)
    (he : e.val < 640000) :
    val_main_v9 (F := Ideal) x6 (ix1 e) = val_main_v8 (F := Ideal) x6 (ix1 ⟨e.val, he⟩) := by
  unfold val_main_v9
  exact concatenate_pair_apply_left 0 _ _ concatenates_S640000_S10000_S650000_d0 (ix1 e) rfl
    (ix1 ⟨e.val, he⟩) (fun b => by match b with | ⟨0, _⟩ => rfl)

/-- From position 640000 on the targets are the self-loops: position `e` holds `e - 640000`. -/
theorem col_right (x6 : (⟨S2x640000, .i32⟩ : BufTy).Contents (Elt Ideal)) (e : Fin 650000)
    (he : 640000 ≤ e.val) (he2 : e.val - 640000 < 10000) :
    val_main_v9 (F := Ideal) x6 (ix1 e) = val_main_v3 (F := Ideal) (ix1 ⟨e.val - 640000, he2⟩) := by
  unfold val_main_v9
  refine concatenate_pair_apply_right 0 _ _ concatenates_S640000_S10000_S650000_d0 (ix1 e) rfl rfl
    (ix1 ⟨e.val - 640000, he2⟩) ?_ ?_
  · -- a rank-1 shape has no axis other than the joined one
    intro b hb
    exfalso
    apply hb
    apply Fin.ext
    have hlt : b.val < 1 := b.isLt
    show b.val = 0
    omega
  · show e.val - 640000 + 640000 = e.val
    omega

/-- Every source (the edge table's row 0, then the self-loops) is in `[0, 10000)`. -/
theorem row_range (x6 : (⟨S2x640000, .i32⟩ : BufTy).Contents (Elt Ideal))
    (h6 : ∀ i, 0 ≤ (x6 i).toInt ∧ (x6 i).toInt < 10000) (e : Fin 650000) :
    0 ≤ (val_main_v6 (F := Ideal) x6 (ix1 e)).toInt ∧ (val_main_v6 (F := Ideal) x6 (ix1 e)).toInt < 10000 := by
  by_cases he : e.val < 640000
  · -- an entry of the edge table's row 0
    rw [row_left x6 e he, val_main_v5_apply, val_main_v4_apply]
    exact h6 _
  · -- a self-loop: the word of `e - 640000 < 10000`
    have he2 : e.val - 640000 < 10000 := by have := e.isLt; omega
    rw [row_right x6 e (by omega) he2, val_main_v3_apply]
    exact ofNat_small_range _ he2

/-- Every target (the edge table's row 1, then the self-loops) is in `[0, 10000)`. -/
theorem col_range (x6 : (⟨S2x640000, .i32⟩ : BufTy).Contents (Elt Ideal))
    (h6 : ∀ i, 0 ≤ (x6 i).toInt ∧ (x6 i).toInt < 10000) (e : Fin 650000) :
    0 ≤ (val_main_v9 (F := Ideal) x6 (ix1 e)).toInt ∧ (val_main_v9 (F := Ideal) x6 (ix1 e)).toInt < 10000 := by
  by_cases he : e.val < 640000
  · -- an entry of the edge table's row 1
    rw [col_left x6 e he, val_main_v8_apply, val_main_v7_apply]
    exact h6 _
  · -- a self-loop: the word of `e - 640000 < 10000`
    have he2 : e.val - 640000 < 10000 := by have := e.isLt; omega
    rw [col_right x6 e (by omega) he2, val_main_v3_apply]
    exact ofNat_small_range _ he2

end Cert.ReferenceIdeal.Edges

end
-- ==== Proof.Finite.lean ====
import proofs.«421699_j16904991277609_3_alg».proof.Proof.RefRead
import proofs.«421699_j16904991277609_3_alg».proof.Proof.Spec
import proofs.«421699_j16904991277609_3_alg».proof.Proof.LibScatterRows
import proofs.«421699_j16904991277609_3_alg».proof.Proof.LibEFinite
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

/-!
# The normalised edge weights and the transformed features are finite

With finite edge attributes every edge weight is a finite nonnegative number (an absolute value, or
the self-loop's 1), every node's degree is a finite nonnegative sum of them, its reciprocal square
root where the degree is positive — and 0 elsewhere — is finite, and so is each normalised weight,
a product of three such numbers. With finite features, weights and bias every transformed feature
is a finite sum of products plus a finite number.
-/

open scoped BigOperators

noncomputable section

namespace Cert.ReferenceIdeal.Finite

open Cert.ReferenceIdeal Cert.ReferenceIdeal.Gen Cert.ReferenceIdeal.ReadP Cert.EFinite
open Idealize.ShloMosaic Idealize.ShloMosaic.TcCoe Idealize.ShloMosaic.ValueIdx

/-! ### Scalars -/

/-- The pattern of the float 1.0 denotes the number 1: sign 0, biased exponent 127, fraction 0,
    so the value is 2²³ · 2⁻²³. -/
theorem ofBits_one_f32 : Ideal.ofBits .f32 0x3F800000#32 = 1 := by
  simp [Ideal.ofBits, Ideal.ieee, -EReal.coe_mul]
  norm_num

/-- The absolute value max x (−x) of a finite x = r is the nonnegative real |r|. -/
theorem isNonnegFin_absf {x : EReal} (hx : IsFin x) : IsNonnegFin (max x (-x)) := by
  obtain ⟨r, rfl⟩ := hx
  refine ⟨|r|, abs_nonneg r, ?_⟩
  rw [← EReal.coe_neg, ← EReal.coe_strictMono.monotone.map_max]
  rfl

/-- The comparison "greater than" answers 1 only where the right operand is strictly below the left. -/
theorem lt_of_cmp_ogt {x y : EReal} (h : Ideal.cmp .ogt x y = 1#1) : y < x := by
  have h' : BitVec.ofBool (decide (y < x)) = 1#1 := h
  by_contra hn
  rw [decide_eq_false hn] at h'
  exact absurd h' (by decide)

/-! ### The edge weights -/

/-- Every edge weight — the absolute value of an edge attribute on the 640000 given edges, 1 on the
    10000 self-loops behind them — is finite and nonnegative. -/
theorem weight_isNonnegFin (x1 : (⟨S640000x4, .f32⟩ : BufTy).Contents (Elt Ideal)) (h1 : ∀ i, IsFin (x1 i))
    (j : S650000.Idx) : IsNonnegFin (val_main_v11 (F := Ideal) x1 j) := by
  have hj0 : (j 0).val < 650000 := (j 0).isLt
  unfold val_main_v11
  by_cases hj : (j 0).val < 640000
  · -- a given edge: the first piece at the same position
    rw [concatenate_pair_apply_left (s₁ := S640000) (s₂ := S10000) 0 _ _ _ j rfl (ix1 ⟨(j 0).val, hj⟩) (fun b => by
      match b with
      | ⟨0, _⟩ => rfl)]
    rw [val_main_v2_apply, val_main_v1_apply, val_main_v0_apply]
    exact isNonnegFin_absf (h1 _)
  · -- a self-loop: the second piece, 640000 positions earlier, the constant 1
    have hlt : (j 0).val - 640000 < 10000 := by omega
    rw [concatenate_pair_apply_right (s₁ := S640000) (s₂ := S10000) 0 _ _ _ j rfl rfl (ix1 ⟨(j 0).val - 640000, hlt⟩)
      (fun b hb => absurd (Subsingleton.elim (α := Fin 1) _ _) hb)
      (by show (j 0).val - 640000 + 640000 = (j 0).val; omega)]
    rw [val_main_v10_apply, val_main_cst_apply, Ideal.ofBits_def, ofBits_one_f32]
    exact isPosFin_one.isNonnegFin

/-! ### The degrees and their reciprocal square roots -/

/-- An accumulating scatter, in the program's own spelling, of nonnegative finite updates onto a
    nonnegative finite operand is nonnegative finite at every index: the operand's entry plus a finite
    sum of updates. Stated over arbitrary shapes, so that nothing is computed at the literal ones. -/
theorem isNonnegFin_scatterAdd {s si su : Shape} (d : ScatterDims s si su) {w : Nat} (x : s.Idx → EReal)
    (idx : IVec si w) (upd : su.Idx → EReal) (hx : ∀ i, IsNonnegFin (x i)) (hu : ∀ j, IsNonnegFin (upd j))
    (i : s.Idx) : IsNonnegFin (Host.scatterAdd (F := Ideal) (φ := .f32) d x idx upd i) :=
  isNonnegFin_hostScatterAdd d x idx upd hx hu i

/-- Every node's degree — the weights of the edges into it, added onto 0 — is finite and nonnegative. -/
theorem degree_isNonnegFin (x1 : (⟨S640000x4, .f32⟩ : BufTy).Contents (Elt Ideal)) (x6 : (⟨S2x640000, .i32⟩ : BufTy).Contents (Elt Ideal))
    (h1 : ∀ i, IsFin (x1 i)) (i : S10000.Idx) : IsNonnegFin (val_main_v14 (F := Ideal) x1 x6 i) := by
  unfold val_main_v14
  refine isNonnegFin_scatterAdd _ _ _ _ (fun k => ?_) (weight_isNonnegFin x1 h1) i
  rw [val_main_v12_apply, val_main_cst_0_apply, Ideal.ofBits_def, Ideal.ofBits_zero_f32]
  exact isNonnegFin_zero

/-- Every node's normalising factor is finite: where the degree is positive it is the reciprocal square
    root of a positive finite number, elsewhere it is 0. -/
theorem dinv_isFin (x1 : (⟨S640000x4, .f32⟩ : BufTy).Contents (Elt Ideal)) (x6 : (⟨S2x640000, .i32⟩ : BufTy).Contents (Elt Ideal))
    (h1 : ∀ i, IsFin (x1 i)) (i : S10000.Idx) : IsFin (val_main_v18 (F := Ideal) x1 x6 i) := by
  rw [val_main_v18_apply]
  by_cases hb : val_main_v16 (F := Ideal) x1 x6 i = 1#1
  · -- the degree is above 0
    rw [hb, select_one, val_main_v17_apply, Ideal.hostUnary_rsqrt_def]
    rw [val_main_v16_apply, val_main_v15_apply, val_main_cst_1_apply, Ideal.ofBits_def, Ideal.ofBits_zero_f32] at hb
    have hpos : 0 < val_main_v14 (F := Ideal) x1 x6 i := lt_of_cmp_ogt hb
    exact ((degree_isNonnegFin x1 x6 h1 i).isFin.isPosFin hpos).rsqrt.isFin
  · -- the degree is not above 0: the constant 0
    rw [eq_zero_of_ne_one hb, select_zero, val_main_call0_v1_apply, val_main_call0_v0_apply, val_main_cst_2_apply,
      Ideal.ofBits_def, Ideal.ofBits_zero_f32]
    exact isFin_zero

/-! ### The normalised weights -/

/-- The factor of an edge's first endpoint: an entry of the table of factors, whatever the endpoint. -/
theorem dinvRow_isFin (x1 : (⟨S640000x4, .f32⟩ : BufTy).Contents (Elt Ideal)) (x6 : (⟨S2x640000, .i32⟩ : BufTy).Contents (Elt Ideal))
    (h1 : ∀ i, IsFin (x1 i)) (j : S650000.Idx) : IsFin (val_main_v25 (F := Ideal) x1 x6 j) := by
  unfold val_main_v25 Host.gather
  exact dinv_isFin x1 x6 h1 _

/-- The factor of an edge's second endpoint, likewise. -/
theorem dinvCol_isFin (x1 : (⟨S640000x4, .f32⟩ : BufTy).Contents (Elt Ideal)) (x6 : (⟨S2x640000, .i32⟩ : BufTy).Contents (Elt Ideal))
    (h1 : ∀ i, IsFin (x1 i)) (j : S650000.Idx) : IsFin (val_main_v33 (F := Ideal) x1 x6 j) := by
  unfold val_main_v33 Host.gather
  exact dinv_isFin x1 x6 h1 _

/-- Every normalised edge weight is finite. -/
theorem norm_isFin (x1 : (⟨S640000x4, .f32⟩ : BufTy).Contents (Elt Ideal)) (x6 : (⟨S2x640000, .i32⟩ : BufTy).Contents (Elt Ideal))
    (h1 : ∀ i, IsFin (x1 i)) (i : S650000.Idx) : IsFin (val_main_v34 (F := Ideal) x1 x6 i) := by
  rw [val_main_v34_apply, val_main_v26_apply, Ideal.mulf_def, Ideal.mulf_def]
  exact ((dinvRow_isFin x1 x6 h1 i).mul (weight_isNonnegFin x1 h1 i).isFin).mul (dinvCol_isFin x1 x6 h1 i)

/-- Every transformed feature is finite. -/
theorem lin_isFin (x0 : Cert.Spec.Arr 10000 128) (wt : Cert.Spec.Arr 128 128) (b2 : Cert.Spec.Arr 1 128)
    (h0 : ∀ i, IsFin (x0 i)) (hw : ∀ i, IsFin (wt i)) (hb : ∀ i, IsFin (b2 i)) (p : Fin 10000) (q : Fin 128) :
    IsFin (Cert.Spec.lin x0 wt b2 p q) := by
  unfold Cert.Spec.lin
  exact IsFin.add (isFin_sum_univ _ fun k => (h0 _).mul (hw _)) (hb _)

end Cert.ReferenceIdeal.Finite

end
-- ==== Proof.PreFacts.lean ====
import proofs.«421699_j16904991277609_3_alg».proof.Pre_finite_inputs
import proofs.«421699_j16904991277609_3_alg».proof.Proof.LibEFinite
import Idealize.ShloMosaic.Lib.ReduceAll
import Idealize.ShloMosaic.Lib.ValueIdx

/-!
# What the precondition says of the inputs

The precondition is one boolean: the conjunction, over the six float inputs, of "every entry's
absolute value is below +∞", and of "every entry of the edge table is at least 0 and below 10000".
Where it holds, every float input is finite entry by entry (an extended real whose absolute value is
below +∞ is a real), and every edge endpoint, read signed, is a node number.
-/

open Idealize.ShloMosaic Idealize.ShloMosaic.ValueIdx
open Cert.EFinite

noncomputable section

namespace Cert.PreFacts

open Cert.Pre_finite_inputs

/-! ### The element facts -/

/-- The binary32 pattern with every exponent bit set, a clear sign and a zero fraction denotes +∞. -/
theorem ofBits_inf : Ideal.ofBits .f32 (0x7F800000#32 : BitVec 32) = (⊤ : EReal) := by
  simp [Ideal.ofBits, Ideal.ieee]

/-- An extended real whose absolute value `max x (-x)` compares below +∞ is finite: at +∞ the
    absolute value is +∞, at −∞ it is +∞ too, and neither is below +∞; what is left is a real. -/
theorem isFin_of_abs_lt_top (x : EReal) (h : Ideal.cmp .olt (max x (-x)) ⊤ = 1#1) : IsFin x := by
  induction x using EReal.rec with
  | bot => simp [Ideal.cmp] at h
  | top => simp [Ideal.cmp] at h
  | coe r => exact ⟨r, rfl⟩

/-- The scalar shape has one index. -/
theorem subsingleton_scalar_idx : Subsingleton S_.Idx := ⟨fun a b => funext fun d => d.elim0⟩

/-- The conjunction of two boolean arrays is 1 at an index exactly where both are. -/
theorem andi_apply_eq_one {s : Shape} (a b : IVec s 1) (j : s.Idx) :
    andi a b j = 1#1 ↔ a j = 1#1 ∧ b j = 1#1 := IntOp.andi_eq_one

/-! ### One block of the conjunction, over any shape -/

/-- "All entries have absolute value below +∞" being true makes every entry finite: the reduction by
    conjunction is 1 only if the comparison is 1 at every index, and there the broadcast constant
    is +∞. -/
theorem float_block {s : Shape} {axes : List (Fin s.rank)} (hb : S_.BroadcastsInDim s ![])
    (hr : s.ReducesTo axes S_) {u : Shape} (hu : 0 < u.numel) (init : IVec u 1) (x : FVec Ideal s .f32)
    (j : S_.Idx)
    (e : Host.reduce IntOp.andi
      (cmpf .olt (Host.absf x) (broadcastInDim s ![] hb (constant S_ .f32 0x7F800000#32))) init hr hu j = 1#1) :
    ∀ i, IsFin (x i) := by
  intro i
  haveI := subsingleton_scalar_idx
  have h1 := Host.reduce_andi_all _ init hr hu j e i
  exact isFin_of_abs_lt_top (x i) (by rw [← ofBits_inf]; exact h1)

/-- "All entries are at least 0 and below 10000, read signed" being true gives the two bounds at
    every index. -/
theorem int_block {s : Shape} {axes : List (Fin s.rank)} (hb : S_.BroadcastsInDim s ![])
    (hr : s.ReducesTo axes S_) {u : Shape} (hu : 0 < u.numel) (init : IVec u 1) (x : IVec s 32)
    (j : S_.Idx)
    (e : Host.reduce IntOp.andi
      (andi (cmpi .sge x (broadcastInDim s ![] hb (constantI S_ 32 0#32)))
        (cmpi .slt x (broadcastInDim s ![] hb (constantI S_ 32 10000#32)))) init hr hu j = 1#1) :
    ∀ i, 0 ≤ (x i).toInt ∧ (x i).toInt < 10000 := by
  intro i
  haveI := subsingleton_scalar_idx
  have h1 := Host.reduce_andi_all _ init hr hu j e i
  obtain ⟨h2, h3⟩ := (andi_apply_eq_one _ _ i).1 h1
  have h2' : IntOp.cmpi .sge (x i) 0#32 = 1#1 := h2
  have h3' : IntOp.cmpi .slt (x i) 10000#32 = 1#1 := h3
  rw [IntOp.cmpi_sge, show (0#32 : BitVec 32).toInt = 0 from by decide] at h2'
  rw [IntOp.cmpi_slt, show (10000#32 : BitVec 32).toInt = 10000 from by decide] at h3'
  exact ⟨h2', h3'⟩

variable [Cert.Pre_finite_inputs.Facts]

/-- Where the precondition holds every float input is finite and every edge endpoint is in `[0, 10000)`. -/
theorem of_pre (x0 : FVec Ideal S10000x128 .f32) (x1 : FVec Ideal S640000x4 .f32) (x2 : FVec Ideal S128x128 .f32)
    (x3 x4 x5 : FVec Ideal S128 .f32) (x6 : IVec S2x640000 32)
    (h : Cert.Pre_finite_inputs.fn (F := Ideal) x0 x1 x2 x3 x4 x5 x6 = fun _ => 1#1) :
    (∀ i, IsFin (x0 i)) ∧ (∀ i, IsFin (x1 i)) ∧ (∀ i, IsFin (x2 i)) ∧ (∀ i, IsFin (x3 i))
      ∧ (∀ i, IsFin (x4 i)) ∧ (∀ i, IsFin (x5 i))
      ∧ (∀ i, 0 ≤ (x6 i).toInt ∧ (x6 i).toInt < 10000) := by
  -- the precondition at the one index of the scalar shape, its seven blocks joined by conjunction
  have h0 := congrFun h ix0
  dsimp only [Cert.Pre_finite_inputs.fn, Cert.Pre_finite_inputs.fn_part1, Cert.Pre_finite_inputs.fn_part2] at h0
  obtain ⟨h0, e6⟩ := (andi_apply_eq_one _ _ _).1 h0
  obtain ⟨h0, e5⟩ := (andi_apply_eq_one _ _ _).1 h0
  obtain ⟨h0, e4⟩ := (andi_apply_eq_one _ _ _).1 h0
  obtain ⟨h0, e3⟩ := (andi_apply_eq_one _ _ _).1 h0
  obtain ⟨h0, e2⟩ := (andi_apply_eq_one _ _ _).1 h0
  obtain ⟨e0, e1⟩ := (andi_apply_eq_one _ _ _).1 h0
  exact ⟨float_block _ _ _ _ x0 _ e0, float_block _ _ _ _ x1 _ e1, float_block _ _ _ _ x2 _ e2,
    float_block _ _ _ _ x3 _ e3, float_block _ _ _ _ x4 _ e4, float_block _ _ _ _ x5 _ e5,
    int_block _ _ _ _ x6 _ e6⟩

end Cert.PreFacts

end
-- ==== Proof.Bridge.lean ====
import proofs.«421699_j16904991277609_3_alg».proof.Proof.HostVals
import proofs.«421699_j16904991277609_3_alg».proof.Proof.Region0
import proofs.«421699_j16904991277609_3_alg».proof.Proof.Region1
import proofs.«421699_j16904991277609_3_alg».proof.Proof.RefTail
import proofs.«421699_j16904991277609_3_alg».proof.Proof.RefAgg
import proofs.«421699_j16904991277609_3_alg».proof.Proof.KernAdj
import proofs.«421699_j16904991277609_3_alg».proof.Proof.BridgeMath
import proofs.«421699_j16904991277609_3_alg».proof.Proof.Edges
import proofs.«421699_j16904991277609_3_alg».proof.Proof.Finite
import proofs.«421699_j16904991277609_3_alg».proof.Proof.PreFacts
import Idealize.ShloMosaic.Lib.ValueLayout

/-!
# The kernel's result is the reference's result

The kernel's program ends with its second launch's result array: at node `p` and feature `q` the
rectified and normalised row `p` of the aggregation through the dense adjacency (in the narrow
format, plus its remainder) of the linear map of the features. The reference ends with the same
rectify-and-normalise chain applied to its edge-wise aggregation. Under the precondition — finite
float inputs, edge endpoints that are node numbers — the dense products are the edge-wise aggregation
(the narrow format is the identity on the extended reals, the remainder is zero, and sums distribute
over finite products), the two linear maps are one function, and so the two results agree at every index.
-/

set_option maxRecDepth 16384

open scoped BigOperators

noncomputable section

namespace Cert.Bridge

open Idealize.ShloMosaic Idealize.ShloMosaic.TcCoe Idealize.SL.Sem Idealize.ShloMosaic.ValueIdx
open Cert.EFinite

section KernelSide

open Cert.KernelIdeal Cert.KernelIdeal.Gen Cert.KernelIdeal.HostVals

/-- The kernel's result as a function of the seven arguments. -/
def kOut (x0 : FVec Ideal S10000x128 .f32) (x1 : FVec Ideal S640000x4 .f32) (x2 : FVec Ideal S128x128 .f32)
    (x3 x4 x5 : FVec Ideal S128 .f32) (x6 : IVec S2x640000 32) : S10000x128.Idx → EReal := fun i =>
  Cert.Spec.out
    (fun k => Cert.Spec.acc
      (truncf .bf16 (adjK (F := Ideal) x1 x6) bitsLt_bf16_f32)
      (truncf .bf16 (subf (adjK (F := Ideal) x1 x6) (extf .f32 (truncf .bf16 (adjK (F := Ideal) x1 x6) bitsLt_bf16_f32) bitsLt_bf16_f32)) bitsLt_bf16_f32)
      (fun i => Cert.Spec.lin x0 (transpose S128x128 [1, 0] x2 transposes_S128x128_S128x128_1_0) (shapeCast S1x128 x3 shapeCasts_S128_S1x128)
        ⟨(i 0).val, (i 0).isLt⟩ ⟨(i 1).val, (i 1).isLt⟩)
      ⟨(i 0).val, (i 0).isLt⟩ k)
    (shapeCast S1x128 x4 shapeCasts_S128_S1x128) (shapeCast S1x128 x5 shapeCasts_S128_S1x128) ⟨(i 1).val, (i 1).isLt⟩

/-- The last boundary's contents of the result buffer are that function of the launch memory's arguments. -/
theorem kernel_value (m : (ℓ : Loc nD τ sig) → Buf (Elt Ideal) ℓ) (ρ : Dev nD → PrngReg) (c : Dev nD) :
    W5 m ρ c (Proc.devRef .tc main_v51)
      = kOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (W5_arr m ρ c 5).trans ?_
  rw [Cert.KernelIdeal.Agg.region1_value (V4 m ρ) c]
  rw [v4_v42 m ρ c, v4_v45 m ρ c, v4_v48 m ρ c, v4_v49 m ρ c, v4_v50 m ρ c, Cert.KernelIdeal.Lin.region0_value (V3 m ρ) c,
    v3_arg0 m ρ c, v3_v46 m ρ c, v3_v47 m ρ c]
  rfl

end KernelSide

section Equality

open Cert.KernelIdeal Cert.KernelIdeal.Gen Cert.KernelIdeal.HostVals

/-- A transposed finite matrix is finite. -/
theorem v35_isFin (x2 : FVec Ideal S128x128 .f32) (h2 : ∀ i, IsFin (x2 i)) (i) : IsFin (Cert.ReferenceIdeal.ReadP.val_main_v35 (F := Ideal) x2 i) := by
  unfold Cert.ReferenceIdeal.ReadP.val_main_v35 transpose
  exact h2 _

/-- A finite vector laid as one row is finite. -/
theorem v37_isFin (x3 : FVec Ideal S128 .f32) (h3 : ∀ i, IsFin (x3 i)) (i) : IsFin (Cert.ReferenceIdeal.ReadP.val_main_v37 (F := Ideal) x3 i) := by
  unfold Cert.ReferenceIdeal.ReadP.val_main_v37 broadcastInDim
  exact h3 _

/-- The kernel's linear map (transposed weights, bias reshaped to a row) is the reference's (transposed weights, bias
    broadcast to a row): the two rows read the bias at the same place. -/
theorem lin_eq (x0 : FVec Ideal S10000x128 .f32) (x2 : FVec Ideal S128x128 .f32) (x3 : FVec Ideal S128 .f32) (r : Fin 10000) (k : Fin 128) :
    Cert.Spec.lin x0 (transpose S128x128 [1, 0] x2 transposes_S128x128_S128x128_1_0) (shapeCast S1x128 x3 shapeCasts_S128_S1x128) r k
      = Cert.Spec.lin x0 (Cert.ReferenceIdeal.ReadP.val_main_v35 (F := Ideal) x2) (Cert.ReferenceIdeal.ReadP.val_main_v37 (F := Ideal) x3) r k := by
  unfold Cert.Spec.lin
  have hb : shapeCast S1x128 x3 shapeCasts_S128_S1x128 (ix2 (0 : Fin 1) k) = Cert.ReferenceIdeal.ReadP.val_main_v37 (F := Ideal) x3 (ix2 (0 : Fin 1) k) := by
    rw [shapeCast_a_1a_apply, Cert.ReferenceIdeal.ReadP.val_main_v37_apply]
    exact congrArg x3 (funext fun a => Fin.ext (by match a with | ⟨0, _⟩ => rfl))
  rw [hb]
  rfl

/-- THE TWO RESULTS AGREE: under the precondition the kernel's result function is the reference's last stage. -/
theorem kOut_eq [Cert.Pre_finite_inputs.Facts] (x0 : FVec Ideal S10000x128 .f32) (x1 : FVec Ideal S640000x4 .f32) (x2 : FVec Ideal S128x128 .f32)
    (x3 x4 x5 : FVec Ideal S128 .f32) (x6 : IVec S2x640000 32)
    (hpre : Cert.Pre_finite_inputs.fn (F := Ideal) x0 x1 x2 x3 x4 x5 x6 = fun _ => 1#1) :
    kOut x0 x1 x2 x3 x4 x5 x6 = Cert.ReferenceIdeal.ReadP.val_main_v81 (F := Ideal) x0 x1 x2 x3 x4 x5 x6 := by
  obtain ⟨f0, f1, f2, f3, f4, f5, h6⟩ := Cert.PreFacts.of_pre x0 x1 x2 x3 x4 x5 x6 hpre
  have hrow := Cert.ReferenceIdeal.Edges.row_range x6 h6
  have hcol := Cert.ReferenceIdeal.Edges.col_range x6 h6
  funext i
  obtain ⟨p, q, rfl⟩ : ∃ (p : Fin 10000) (q : Fin 128), i = ix2 p q := ⟨i 0, i 1, eq_ix2 i⟩
  rw [Cert.ReferenceIdeal.RefTail.tail_apply]
  have hacc : ∀ k : Fin 128,
      Cert.Spec.acc
        (truncf .bf16 (adjK (F := Ideal) x1 x6) bitsLt_bf16_f32)
        (truncf .bf16 (subf (adjK (F := Ideal) x1 x6) (extf .f32 (truncf .bf16 (adjK (F := Ideal) x1 x6) bitsLt_bf16_f32) bitsLt_bf16_f32)) bitsLt_bf16_f32)
        (fun i => Cert.Spec.lin x0 (transpose S128x128 [1, 0] x2 transposes_S128x128_S128x128_1_0) (shapeCast S1x128 x3 shapeCasts_S128_S1x128)
          ⟨(i 0).val, (i 0).isLt⟩ ⟨(i 1).val, (i 1).isLt⟩) p k
      = Cert.ReferenceIdeal.ReadP.val_main_v52 (F := Ideal) x0 x1 x2 x3 x6 (ix2 p k) := by
    intro k
    rw [Cert.ReferenceIdeal.RefAgg.v52_apply x0 x1 x2 x3 x6 hrow p k]
    refine (Cert.BridgeMath.acc_eq (colK (F := Ideal) x6) (rowK (F := Ideal) x6) (normK (F := Ideal) x1 x6)
      (fun r k => Cert.Spec.lin x0 (Cert.ReferenceIdeal.ReadP.val_main_v35 (F := Ideal) x2) (Cert.ReferenceIdeal.ReadP.val_main_v37 (F := Ideal) x3) r k)
      hcol hrow (Cert.ReferenceIdeal.Finite.norm_isFin x1 x6 f1)
      (fun r k => Cert.ReferenceIdeal.Finite.lin_isFin x0 _ _ f0 (v35_isFin x2 f2) (v37_isFin x3 f3) r k)
      _ _ _ ?_ ?_ ?_ p k).trans ?_
    · intro c r
      exact Cert.KernelIdeal.KernAdj.adj_apply (colK (F := Ideal) x6) (rowK (F := Ideal) x6) (normK (F := Ideal) x1 x6) hcol hrow c r
    · intro c r
      rfl
    · intro r k
      exact lin_eq x0 x2 x3 r k
    · rfl
  have hg : shapeCast S1x128 x4 shapeCasts_S128_S1x128 (ix2 (0 : Fin 1) q) = x4 (ix1 q) := shapeCast_a_1a_apply _ _ _ _
  have hb : shapeCast S1x128 x5 shapeCasts_S128_S1x128 (ix2 (0 : Fin 1) q) = x5 (ix1 q) := shapeCast_a_1a_apply _ _ _ _
  show Cert.Spec.out (fun k => Cert.Spec.acc _ _ _ p k) _ _ q = _
  unfold Cert.Spec.out
  rw [hg, hb]
  simp only [hacc]

end Equality

end Cert.Bridge

end
-- ==== Proof.lean ====
/- The claim's proof.

   The kernel builds a dense 10000 × 10000 adjacency on the host — the normalised edge weights scattered
   onto position `target · 10000 + source` — and aggregates with two dense matrix products (the matrix in
   the narrow float format, plus its remainder); the reference gathers the source's features edge by edge,
   scales them and scatters them onto the target. On the extended reals the narrow format is the identity,
   the remainder is `A − A = 0` for a finite `A`, and a sum of finite weights distributes over a product
   with a finite feature: so row `p` of the dense product is the sum over the edges into `p` of the
   source's features times the weight. Both programs then rectify and normalise each row the same way.
   This needs the float inputs finite and the edge endpoints node numbers (the precondition): an endpoint
   outside `[0, 10000)` lands in another cell of the flat adjacency than the one its row and column name.

   The two frames are the generated ones; the reference's frame is its run with the result dropped; the
   ideal pass rewrote nothing, so `preserves` is trivial; `algebraic` sets the kernel's run, re-posted with
   its result buffer's contents, beside the reference's run, both at the reference's last stage. -/
import proofs.«421699_j16904991277609_3_alg».proof.Defs
import proofs.«421699_j16904991277609_3_alg».proof.Proof.Gen.Kernel
import proofs.«421699_j16904991277609_3_alg».proof.Proof.Gen.Kernel.Skeleton
import proofs.«421699_j16904991277609_3_alg».proof.Proof.Gen.Kernel.Launch
import proofs.«421699_j16904991277609_3_alg».proof.Proof.Gen.Kernel.Points
import proofs.«421699_j16904991277609_3_alg».proof.Proof.Gen.Kernel.Frame
import proofs.«421699_j16904991277609_3_alg».proof.Proof.Gen.KernelIdeal
import proofs.«421699_j16904991277609_3_alg».proof.Proof.Gen.KernelIdeal.Skeleton
import proofs.«421699_j16904991277609_3_alg».proof.Proof.Gen.KernelIdeal.Launch
import proofs.«421699_j16904991277609_3_alg».proof.Proof.Gen.KernelIdeal.Points
import proofs.«421699_j16904991277609_3_alg».proof.Proof.Gen.KernelIdeal.Frame
import proofs.«421699_j16904991277609_3_alg».proof.Proof.Gen.ReferenceIdeal
import proofs.«421699_j16904991277609_3_alg».proof.Proof.Gen.Pre_finite_inputs
import proofs.«421699_j16904991277609_3_alg».proof.Proof.RefRun
import proofs.«421699_j16904991277609_3_alg».proof.Proof.RefRead
import proofs.«421699_j16904991277609_3_alg».proof.Proof.KernelRun
import proofs.«421699_j16904991277609_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the reference's last stage of the (agreeing) arguments. -/
theorem algebraic : Cert.algebraic_KernelIdeal_ReferenceIdeal := by
  intro m ρ m' ρ' hpre hagree
  refine ⟨fun c => Cert.ReferenceIdeal.ReadP.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.GenP.run_result (F := Ideal) m ρ)
    rw [Cert.Bridge.kernel_value m ρ c]
    exact Cert.Bridge.kOut_eq _ _ _ _ _ _ _ (hpre c)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v81_eq]
    obtain ⟨a0, a1, a2, a3, a4, a5, a6⟩ := hagree c
    rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
